-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S8x16384x16x3 : Shape := ⟨4, ![8, 16384, 16, 3]⟩
abbrev S4x4 : Shape := ⟨2, ![4, 4]⟩
abbrev S4 : Shape := ⟨1, ![4]⟩
abbrev S8x4 : Shape := ⟨2, ![8, 4]⟩
abbrev S8 : Shape := ⟨1, ![8]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S8x16384x16x3 : S_.BroadcastsInDim S8x16384x16x3 (![] : Fin 0 → Fin S8x16384x16x3.rank)
  reducesTo_S8x16384x16x3_S_d0_1_2_3 : S8x16384x16x3.ReducesTo [0, 1, 2, 3] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S8x4 : S_.BroadcastsInDim S8x4 (![] : Fin 0 → Fin S8x4.rank)
  reducesTo_S8x4_S_d0_1 : S8x4.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg11 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg7 : FVec F S8x4 .f32) (main_arg8 : FVec F S8 .f32) (main_arg9 : FVec F S8 .f32) (main_arg10 : FVec F S8 .f32) (main_arg11 : FVec F S8 .f32) (main_v33 : IVec S_ 1) : IVec S_ 1 :=
  let main_v34 : FVec F S8x4 .f32 := Host.absf main_arg7
  let main_cst_12 : FVec F S_ .f32 := constant S_ .f32 0x7F800000#32
  let main_v35 : FVec F S8x4 .f32 := broadcastInDim S8x4 ![] bcast_S_S8x4 main_cst_12
  let main_v36 : IVec S8x4 1 := cmpf .olt main_v34 main_v35
  let main_c_13 : IVec S_ 1 := constantI S_ 1 1#1
  let main_v37 : IVec S_ 1 := (fun x v => Host.reduce IntOp.andi x v reducesTo_S8x4_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_v48 main_v49 main_v50

def fn_part1 {F : FTy → Type} [FloatOps F] (main_arg4 : FVec F S4 .f32) (main_arg5 : FVec F S4 .f32) (main_arg6 : FVec F S4 .f32) (main_arg7 : FVec F S8x4 .f32) (main_arg8 : FVec F S8 .f32) (main_arg9 : FVec F S8 .f32) (main_arg10 : FVec F S8 .f32) (main_arg11 : FVec F S8 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x16384x3 .f32) (main_arg1 : FVec F S8x16384x16x3 .f32) (main_arg2 : FVec F S4x4 .f32) (main_arg3 : FVec F S4 .f32) (main_arg4 : FVec F S4 .f32) (main_arg5 : FVec F S4 .f32) (main_arg6 : FVec F S4 .f32) (main_arg7 : FVec F S8x4 .f32) (main_arg8 : FVec F S8 .f32) (main_arg9 : FVec F S8 .f32) (main_arg10 : FVec F S8 .f32) (main_arg11 : FVec F S8 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S8x16384x16x3 .f32 := Host.absf main_arg1
  let main_cst_0 : FVec F S_ .f32 := constant S_ .f32 0x7F800000#32
  let main_v5 : FVec F S8x16384x16x3 .f32 := broadcastInDim S8x16384x16x3 ![] bcast_S_S8x16384x16x3 main_cst_0
  let main_v6 : IVec S8x16384x16x3 1 := cmpf .olt main_v4 main_v5
  let main_c_1 : IVec S_ 1 := constantI S_ 1 1#1
  let main_v7 : IVec S_ 1 := (fun x v => Host.reduce IntOp.andi x v reducesTo_S8x16384x16x3_S_d0_1_2_3 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_arg9 main_arg10 main_arg11 main_v13 main_v16
-- ==== Kernel.lean ====
abbrev S8x16384x3 : Shape := ⟨3, ![8, 16384, 3]⟩
abbrev S8x16384x16x3 : Shape := ⟨4, ![8, 16384, 16, 3]⟩
abbrev S4x4 : Shape := ⟨2, ![4, 4]⟩
abbrev S4 : Shape := ⟨1, ![4]⟩
abbrev S8x4 : Shape := ⟨2, ![8, 4]⟩
abbrev S8 : Shape := ⟨1, ![8]⟩
abbrev S8x16384x48 : Shape := ⟨3, ![8, 16384, 48]⟩
abbrev S16x16 : Shape := ⟨2, ![16, 16]⟩
abbrev S_ : Shape := ⟨0, ![]⟩
abbrev S3x3 : Shape := ⟨2, ![3, 3]⟩
abbrev S1x3x1x3 : Shape := ⟨4, ![1, 3, 1, 3]⟩
abbrev S1x3x16x3 : Shape := ⟨4, ![1, 3, 16, 3]⟩
abbrev S3x48 : Shape := ⟨2, ![3, 48]⟩
abbrev S3x1 : Shape := ⟨2, ![3, 1]⟩
abbrev S16x1x16x1 : Shape := ⟨4, ![16, 1, 16, 1]⟩
abbrev S1x3x1x1 : Shape := ⟨4, ![1, 3, 1, 1]⟩
abbrev S16x3x16x1 : Shape := ⟨4, ![16, 3, 16, 1]⟩
abbrev S48x16 : Shape := ⟨2, ![48, 16]⟩
abbrev S4x3 : Shape := ⟨2, ![4, 3]⟩
abbrev S3x4 : Shape := ⟨2, ![3, 4]⟩
abbrev S1x3x1x4 : Shape := ⟨4, ![1, 3, 1, 4]⟩
abbrev S16x3x16x4 : Shape := ⟨4, ![16, 3, 16, 4]⟩
abbrev S48x64 : Shape := ⟨2, ![48, 64]⟩
abbrev S4x1 : Shape := ⟨2, ![4, 1]⟩
abbrev S1x4 : Shape := ⟨2, ![1, 4]⟩
abbrev S1x1x1x4 : Shape := ⟨4, ![1, 1, 1, 4]⟩
abbrev S16x1x16x4 : Shape := ⟨4, ![16, 1, 16, 4]⟩
abbrev S16x64 : Shape := ⟨2, ![16, 64]⟩
abbrev S4x8 : Shape := ⟨2, ![4, 8]⟩
abbrev S1x4x1x8 : Shape := ⟨4, ![1, 4, 1, 8]⟩
abbrev S16x4x16x8 : Shape := ⟨4, ![16, 4, 16, 8]⟩
abbrev S64x128 : Shape := ⟨2, ![64, 128]⟩
abbrev S16x4 : Shape := ⟨2, ![16, 4]⟩
abbrev S64 : Shape := ⟨1, ![64]⟩
abbrev S1x64 : Shape := ⟨2, ![1, 64]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S8x16384x128 : Shape := ⟨3, ![8, 16384, 128]⟩
abbrev S1x4096x3 : Shape := ⟨3, ![1, 4096, 3]⟩
abbrev S1x4096x48 : Shape := ⟨3, ![1, 4096, 48]⟩
abbrev S1x4096x128 : Shape := ⟨3, ![1, 4096, 128]⟩
abbrev S4096x3 : Shape := ⟨2, ![4096, 3]⟩
abbrev S4096x48 : Shape := ⟨2, ![4096, 48]⟩
abbrev S4096x16 : Shape := ⟨2, ![4096, 16]⟩
abbrev S4096x64 : Shape := ⟨2, ![4096, 64]⟩
abbrev S4096x128 : Shape := ⟨2, ![4096, 128]⟩
abbrev S8x16384x16x8 : Shape := ⟨4, ![8, 16384, 16, 8]⟩

abbrev nBuf : Space → Nat
  | .hbm => 93
  | .vmem => 15
  | .smem => 0
  | _ => 0

abbrev bufTy : (tb : Table) → Fin (tcTables nBuf tb) → BufTy
  | .hbm, ⟨0, _⟩ => ⟨S8x16384x3, .f32⟩
  | .hbm, ⟨1, _⟩ => ⟨S8x16384x16x3, .f32⟩
  | .hbm, ⟨2, _⟩ => ⟨S4x4, .f32⟩
  | .hbm, ⟨3, _⟩ => ⟨S4, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S8x4, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8x16384x48, .f32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i1⟩
  | .hbm, ⟨19, _⟩ => ⟨S16x16, .f32⟩
  | .hbm, ⟨20, _⟩ => ⟨S3x3, .i32⟩
  | .hbm, ⟨21, _⟩ => ⟨S3x3, .i32⟩
  | .hbm, ⟨22, _⟩ => ⟨S_, .i32⟩
  | .hbm, ⟨23, _⟩ => ⟨S3x3, .i32⟩
  | .hbm, ⟨24, _⟩ => ⟨S3x3, .i32⟩
  | .hbm, ⟨25, _⟩ => ⟨S3x3, .i1⟩
  | .hbm, ⟨26, _⟩ => ⟨S3x3, .f32⟩
  | .hbm, ⟨27, _⟩ => ⟨S1x3x1x3, .f32⟩
  | .hbm, ⟨28, _⟩ => ⟨S1x3x16x3, .f32⟩
  | .hbm, ⟨29, _⟩ => ⟨S3x48, .f32⟩
  | .hbm, ⟨30, _⟩ => ⟨S_, .f32⟩
  | .hbm, ⟨31, _⟩ => ⟨S3x1, .f32⟩
  | .hbm, ⟨32, _⟩ => ⟨S16x1x16x1, .f32⟩
  | .hbm, ⟨33, _⟩ => ⟨S1x3x1x1, .f32⟩
  | .hbm, ⟨34, _⟩ => ⟨S16x3x16x1, .f32⟩
  | .hbm, ⟨35, _⟩ => ⟨S16x3x16x1, .f32⟩
  | .hbm, ⟨36, _⟩ => ⟨S16x3x16x1, .f32⟩
  | .hbm, ⟨37, _⟩ => ⟨S48x16, .f32⟩
  | .hbm, ⟨38, _⟩ => ⟨S4x3, .f32⟩
  | .hbm, ⟨39, _⟩ => ⟨S3x4, .f32⟩
  | .hbm, ⟨40, _⟩ => ⟨S16x1x16x1, .f32⟩
  | .hbm, ⟨41, _⟩ => ⟨S1x3x1x4, .f32⟩
  | .hbm, ⟨42, _⟩ => ⟨S16x3x16x4, .f32⟩
  | .hbm, ⟨43, _⟩ => ⟨S16x3x16x4, .f32⟩
  | .hbm, ⟨44, _⟩ => ⟨S16x3x16x4, .f32⟩
  | .hbm, ⟨45, _⟩ => ⟨S48x64, .f32⟩
  | .hbm, ⟨46, _⟩ => ⟨S4x1, .f32⟩
  | .hbm, ⟨47, _⟩ => ⟨S1x4, .f32⟩
  | .hbm, ⟨48, _⟩ => ⟨S16x1x16x1, .f32⟩
  | .hbm, ⟨49, _⟩ => ⟨S1x1x1x4, .f32⟩
  | .hbm, ⟨50, _⟩ => ⟨S16x1x16x4, .f32⟩
  | .hbm, ⟨51, _⟩ => ⟨S16x1x16x4, .f32⟩
  | .hbm, ⟨52, _⟩ => ⟨S16x1x16x4, .f32⟩
  | .hbm, ⟨53, _⟩ => ⟨S16x64, .f32⟩
  | .hbm, ⟨54, _⟩ => ⟨S4x8, .f32⟩
  | .hbm, ⟨55, _⟩ => ⟨S16x1x16x1, .f32⟩
  | .hbm, ⟨56, _⟩ => ⟨S1x4x1x8, .f32⟩
  | .hbm, ⟨57, _⟩ => ⟨S16x4x16x8, .f32⟩
  | .hbm, ⟨58, _⟩ => ⟨S16x4x16x8, .f32⟩
  | .hbm, ⟨59, _⟩ => ⟨S16x4x16x8, .f32⟩
  | .hbm, ⟨60, _⟩ => ⟨S64x128, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S1x4, .f32⟩
  | .hbm, ⟨69, _⟩ => ⟨S16x4, .f32⟩
  | .hbm, ⟨70, _⟩ => ⟨S64, .f32⟩
  | .hbm, ⟨71, _⟩ => ⟨S1x64, .f32⟩
  | .hbm, ⟨72, _⟩ => ⟨S1x4, .f32⟩
  | .hbm, ⟨73, _⟩ => ⟨S16x4, .f32⟩
  | .hbm, ⟨74, _⟩ => ⟨S64, .f32⟩
  | .hbm, ⟨75, _⟩ => ⟨S1x64, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S1x8, .f32⟩
  | .hbm, ⟨84, _⟩ => ⟨S16x8, .f32⟩
  | .hbm, ⟨85, _⟩ => ⟨S128, .f32⟩
  | .hbm, ⟨86, _⟩ => ⟨S1x128, .f32⟩
  | .hbm, ⟨87, _⟩ => ⟨S1x8, .f32⟩
  | .hbm, ⟨88, _⟩ => ⟨S16x8, .f32⟩
  | .hbm, ⟨89, _⟩ => ⟨S128, .f32⟩
  | .hbm, ⟨90, _⟩ => ⟨S1x128, .f32⟩
  | .hbm, ⟨91, _⟩ => ⟨S8x16384x128, .f32⟩
  | .hbm, ⟨92, _⟩ => ⟨S8x16384x16x8, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x48, .f32⟩
  | .local _ .vmem, ⟨3, _⟩ => ⟨S1x4096x48, .f32⟩
  | .local _ .vmem, ⟨4, _⟩ => ⟨S3x48, .f32⟩
  | .local _ .vmem, ⟨5, _⟩ => ⟨S48x16, .f32⟩
  | .local _ .vmem, ⟨6, _⟩ => ⟨S48x64, .f32⟩
  | .local _ .vmem, ⟨7, _⟩ => ⟨S16x64, .f32⟩
  | .local _ .vmem, ⟨8, _⟩ => ⟨S64x128, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x128, .f32⟩
  | .local _ .vmem, ⟨13, _⟩ => ⟨S1x4096x128, .f32⟩
  | .local _ .vmem, ⟨14, _⟩ => ⟨S1x4096x128, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v23 : Ref sig .tc := ⟨.hbm, 53, rfl⟩
abbrev main_v24 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v25 : Ref sig .tc := ⟨.hbm, 60, rfl⟩
abbrev main_cst_1 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_2 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S48x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S8x16384x16x3_S8x16384x48 : S8x16384x16x3.ShapeCasts S8x16384x48
  bcast_S_S16x16 : S_.BroadcastsInDim S16x16 (![] : Fin 0 → Fin S16x16.rank)
  bcast_S_S3x3 : S_.BroadcastsInDim S3x3 (![] : Fin 0 → Fin S3x3.rank)
  shapeCasts_S3x3_S1x3x1x3 : S3x3.ShapeCasts S1x3x1x3
  bcast_S1x3x1x3_S1x3x16x3_0_1_2_3 : S1x3x1x3.BroadcastsInDim S1x3x16x3 (![0, 1, 2, 3] : Fin 4 → Fin S1x3x16x3.rank)
  shapeCasts_S1x3x16x3_S3x48 : S1x3x16x3.ShapeCasts S3x48
  bcast_S_S3x1 : S_.BroadcastsInDim S3x1 (![] : Fin 0 → Fin S3x1.rank)
  bcast_S16x16_S16x1x16x1_0_2 : S16x16.BroadcastsInDim S16x1x16x1 (![0, 2] : Fin 2 → Fin S16x1x16x1.rank)
  bcast_S3x1_S1x3x1x1_1_3 : S3x1.BroadcastsInDim S1x3x1x1 (![1, 3] : Fin 2 → Fin S1x3x1x1.rank)
  bcast_S16x1x16x1_S16x3x16x1_0_1_2_3 : S16x1x16x1.BroadcastsInDim S16x3x16x1 (![0, 1, 2, 3] : Fin 4 → Fin S16x3x16x1.rank)
  bcast_S1x3x1x1_S16x3x16x1_0_1_2_3 : S1x3x1x1.BroadcastsInDim S16x3x16x1 (![0, 1, 2, 3] : Fin 4 → Fin S16x3x16x1.rank)
  shapeCasts_S16x3x16x1_S48x16 : S16x3x16x1.ShapeCasts S48x16
  slices_S4x4_S4x3_0_0 : S4x4.Slices ![0, 0] S4x3
  transposes_S4x3_S3x4_1_0 : S4x3.Transposes [1, 0] S3x4
  bcast_S3x4_S1x3x1x4_1_3 : S3x4.BroadcastsInDim S1x3x1x4 (![1, 3] : Fin 2 → Fin S1x3x1x4.rank)
  bcast_S16x1x16x1_S16x3x16x4_0_1_2_3 : S16x1x16x1.BroadcastsInDim S16x3x16x4 (![0, 1, 2, 3] : Fin 4 → Fin S16x3x16x4.rank)
  bcast_S1x3x1x4_S16x3x16x4_0_1_2_3 : S1x3x1x4.BroadcastsInDim S16x3x16x4 (![0, 1, 2, 3] : Fin 4 → Fin S16x3x16x4.rank)
  shapeCasts_S16x3x16x4_S48x64 : S16x3x16x4.ShapeCasts S48x64
  slices_S4x4_S4x1_0_3 : S4x4.Slices ![0, 3] S4x1
  transposes_S4x1_S1x4_1_0 : S4x1.Transposes [1, 0] S1x4
  bcast_S1x4_S1x1x1x4_1_3 : S1x4.BroadcastsInDim S1x1x1x4 (![1, 3] : Fin 2 → Fin S1x1x1x4.rank)
  bcast_S16x1x16x1_S16x1x16x4_0_1_2_3 : S16x1x16x1.BroadcastsInDim S16x1x16x4 (![0, 1, 2, 3] : Fin 4 → Fin S16x1x16x4.rank)
  bcast_S1x1x1x4_S16x1x16x4_0_1_2_3 : S1x1x1x4.BroadcastsInDim S16x1x16x4 (![0, 1, 2, 3] : Fin 4 → Fin S16x1x16x4.rank)
  shapeCasts_S16x1x16x4_S16x64 : S16x1x16x4.ShapeCasts S16x64
  transposes_S8x4_S4x8_1_0 : S8x4.Transposes [1, 0] S4x8
  bcast_S4x8_S1x4x1x8_1_3 : S4x8.BroadcastsInDim S1x4x1x8 (![1, 3] : Fin 2 → Fin S1x4x1x8.rank)
  bcast_S16x1x16x1_S16x4x16x8_0_1_2_3 : S16x1x16x1.BroadcastsInDim S16x4x16x8 (![0, 1, 2, 3] : Fin 4 → Fin S16x4x16x8.rank)
  bcast_S1x4x1x8_S16x4x16x8_0_1_2_3 : S1x4x1x8.BroadcastsInDim S16x4x16x8 (![0, 1, 2, 3] : Fin 4 → Fin S16x4x16x8.rank)
  shapeCasts_S16x4x16x8_S64x128 : S16x4x16x8.ShapeCasts S64x128
  bcast_S_S4 : S_.BroadcastsInDim S4 (![] : Fin 0 → Fin S4.rank)
  shapeCasts_S4_S1x4 : S4.ShapeCasts S1x4
  bcast_S1x4_S16x4_0_1 : S1x4.BroadcastsInDim S16x4 (![0, 1] : Fin 2 → Fin S16x4.rank)
  shapeCasts_S16x4_S64 : S16x4.ShapeCasts S64
  shapeCasts_S64_S1x64 : S64.ShapeCasts S1x64
  bcast_S_S8 : S_.BroadcastsInDim S8 (![] : Fin 0 → Fin S8.rank)
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x4096x48_S1x4096x48_0_0_0 : ∀ a, (![0, 0, 0] : Fin 3 → Nat) a + S1x4096x48.size a ≤ S1x4096x48.size a
  h_S1x4096x48 : 0 < S1x4096x48.numel
  shapeCasts_S1x4096x48_S4096x48 : S1x4096x48.ShapeCasts S4096x48
  inb_S3x48_S3x48_0_0 : ∀ a, (![0, 0] : Fin 2 → Nat) a + S3x48.size a ≤ S3x48.size a
  h_S3x48 : 0 < S3x48.numel
  shapeCasts_S3x48_S3x48 : S3x48.ShapeCasts S3x48
  inb_S48x16_S48x16_0_0 : ∀ a, (![0, 0] : Fin 2 → Nat) a + S48x16.size a ≤ S48x16.size a
  h_S48x16 : 0 < S48x16.numel
  shapeCasts_S48x16_S48x16 : S48x16.ShapeCasts S48x16
  bitsLt_bf16_f32 : FTy.bits .bf16 < FTy.bits .f32
  inb_S48x64_S48x64_0_0 : ∀ a, (![0, 0] : Fin 2 → Nat) a + S48x64.size a ≤ S48x64.size a
  h_S48x64 : 0 < S48x64.numel
  shapeCasts_S48x64_S48x64 : S48x64.ShapeCasts S48x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S8x16384x128_S8x16384x16x8 : S8x16384x128.ShapeCasts S8x16384x16x8
  dot_S4096x3_S3x48_S4096x48_1_0_0_1_n_n_wf : DotDims.WF S4096x3 S3x48 S4096x48 [1] [0] [0] [1] [] []
  dot_S4096x48_S48x16_S4096x16_1_0_0_1_n_n_wf : DotDims.WF S4096x48 S48x16 S4096x16 [1] [0] [0] [1] [] []
  dot_S4096x48_S48x64_S4096x64_1_0_0_1_n_n_wf : DotDims.WF S4096x48 S48x64 S4096x64 [1] [0] [0] [1] [] []
  dot_S4096x16_S16x64_S4096x64_1_0_0_1_n_n_wf : DotDims.WF S4096x16 S16x64 S4096x64 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x16384x3.size a
  hwx0_0 : ∀ i : grid0.Coords, EltTy.bits .f32 = 32 ∨ (Rect.block (s := S8x16384x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x48.size a ≤ S8x16384x48.size a
  hwx0_1 : ∀ i : grid0.Coords, EltTy.bits .f32 = 32 ∨ (Rect.block (s := S8x16384x48) S1x4096x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x48.size a ≤ S3x48.size a
  hwx0_2 : ∀ i : grid0.Coords, EltTy.bits .f32 = 32 ∨ (Rect.block (s := S3x48) S3x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x16.size a ≤ S48x16.size a
  hwx0_3 : ∀ i : grid0.Coords, EltTy.bits .f32 = 32 ∨ (Rect.block (s := S48x16) S48x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x64.size a ≤ S48x64.size a
  hwx0_4 : ∀ i : grid0.Coords, EltTy.bits .f32 = 32 ∨ (Rect.block (s := S48x64) S48x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4096x128.size a ≤ S8x16384x128.size a
  hwx0_11 : ∀ i : grid0.Coords, EltTy.bits .f32 = 32 ∨ (Rect.block (s := S8x16384x128) S1x4096x128.size (cc0_transform_11 i) (hinb0_11 i)).WholeWords (EltTy.packing .f32)

variable [Facts₀]

def dot_S4096x3_S3x48_S4096x48_1_0_0_1_n_n : DotDims S4096x3 S3x48 S4096x48 where
  lhsContracting := [1]
  rhsContracting := [0]
  lhsNonContracting := [0]
  rhsNonContracting := [1]
  lhsBatch := []
  rhsBatch := []
  wf := dot_S4096x3_S3x48_S4096x48_1_0_0_1_n_n_wf
def dot_S4096x48_S48x16_S4096x16_1_0_0_1_n_n : DotDims S4096x48 S48x16 S4096x16 where
  lhsContracting := [1]
  rhsContracting := [0]
  lhsNonContracting := [0]
  rhsNonContracting := [1]
  lhsBatch := []
  rhsBatch := []
  wf := dot_S4096x48_S48x16_S4096x16_1_0_0_1_n_n_wf
def dot_S4096x48_S48x64_S4096x64_1_0_0_1_n_n : DotDims S4096x48 S48x64 S4096x64 where
  lhsContracting := [1]
  rhsContracting := [0]
  lhsNonContracting := [0]
  rhsNonContracting := [1]
  lhsBatch := []
  rhsBatch := []
  wf := dot_S4096x48_S48x64_S4096x64_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S48x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S48x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v53) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S1x4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x16384x3 : Shape := ⟨3, ![8, 16384, 3]⟩
abbrev S8x16384x16x3 : Shape := ⟨4, ![8, 16384, 16, 3]⟩
abbrev S4x4 : Shape := ⟨2, ![4, 4]⟩
abbrev S4 : Shape := ⟨1, ![4]⟩
abbrev S8x4 : Shape := ⟨2, ![8, 4]⟩
abbrev S8 : Shape := ⟨1, ![8]⟩
abbrev S8x16384x1x3 : Shape := ⟨4, ![8, 16384, 1, 3]⟩
abbrev S_ : Shape := ⟨0, ![]⟩
abbrev S8x16384x16 : Shape := ⟨3, ![8, 16384, 16]⟩
abbrev S8x16384x16x1 : Shape := ⟨4, ![8, 16384, 16, 1]⟩
abbrev S8x16384x16x4 : Shape := ⟨4, ![8, 16384, 16, 4]⟩
abbrev S1x1x1x4 : Shape := ⟨4, ![1, 1, 1, 4]⟩
abbrev S8x16384x16x8 : Shape := ⟨4, ![8, 16384, 16, 8]⟩
abbrev S1x1x1x8 : Shape := ⟨4, ![1, 1, 1, 8]⟩

abbrev nBuf : Space → Nat
  | .hbm => 55
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x16384x16x3, .f32⟩
  | .hbm, ⟨2, _⟩ => ⟨S4x4, .f32⟩
  | .hbm, ⟨3, _⟩ => ⟨S4, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S8x4, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8x16384x1x3, .f32⟩
  | .hbm, ⟨13, _⟩ => ⟨S8x16384x16x3, .f32⟩
  | .hbm, ⟨14, _⟩ => ⟨S8x16384x16x3, .f32⟩
  | .hbm, ⟨15, _⟩ => ⟨S8x16384x16x3, .f32⟩
  | .hbm, ⟨16, _⟩ => ⟨S_, .f32⟩
  | .hbm, ⟨17, _⟩ => ⟨S8x16384x16, .f32⟩
  | .hbm, ⟨18, _⟩ => ⟨S8x16384x16x1, .f32⟩
  | .hbm, ⟨19, _⟩ => ⟨S8x16384x16x1, .f32⟩
  | .hbm, ⟨20, _⟩ => ⟨S8x16384x16x4, .f32⟩
  | .hbm, ⟨21, _⟩ => ⟨S8x16384x16x4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S1x1x1x4, .f32⟩
  | .hbm, ⟨28, _⟩ => ⟨S8x16384x16x4, .f32⟩
  | .hbm, ⟨29, _⟩ => ⟨S8x16384x16x4, .f32⟩
  | .hbm, ⟨30, _⟩ => ⟨S4, .f32⟩
  | .hbm, ⟨31, _⟩ => ⟨S4, .f32⟩
  | .hbm, ⟨32, _⟩ => ⟨S1x1x1x4, .f32⟩
  | .hbm, ⟨33, _⟩ => ⟨S8x16384x16x4, .f32⟩
  | .hbm, ⟨34, _⟩ => ⟨S8x16384x16x4, .f32⟩
  | .hbm, ⟨35, _⟩ => ⟨S_, .f32⟩
  | .hbm, ⟨36, _⟩ => ⟨S8x16384x16x4, .f32⟩
  | .hbm, ⟨37, _⟩ => ⟨S8x16384x16x4, .f32⟩
  | .hbm, ⟨38, _⟩ => ⟨S8x16384x16x8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S1x1x1x8, .f32⟩
  | .hbm, ⟨45, _⟩ => ⟨S8x16384x16x8, .f32⟩
  | .hbm, ⟨46, _⟩ => ⟨S8x16384x16x8, .f32⟩
  | .hbm, ⟨47, _⟩ => ⟨S8, .f32⟩
  | .hbm, ⟨48, _⟩ => ⟨S8, .f32⟩
  | .hbm, ⟨49, _⟩ => ⟨S1x1x1x8, .f32⟩
  | .hbm, ⟨50, _⟩ => ⟨S8x16384x16x8, .f32⟩
  | .hbm, ⟨51, _⟩ => ⟨S8x16384x16x8, .f32⟩
  | .hbm, ⟨52, _⟩ => ⟨S_, .f32⟩
  | .hbm, ⟨53, _⟩ => ⟨S8x16384x16x8, .f32⟩
  | .hbm, ⟨54, _⟩ => ⟨S8x16384x16x8, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_cst : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S8x16384x3_S8x16384x1x3_0_1_3 : S8x16384x3.BroadcastsInDim S8x16384x1x3 (![0, 1, 3] : Fin 3 → Fin S8x16384x1x3.rank)
  bcast_S8x16384x1x3_S8x16384x16x3_0_1_2_3 : S8x16384x1x3.BroadcastsInDim S8x16384x16x3 (![0, 1, 2, 3] : Fin 4 → Fin S8x16384x16x3.rank)
  reducesTo_S8x16384x16x3_S8x16384x16_d3 : S8x16384x16x3.ReducesTo [3] S8x16384x16
  h_S_ : 0 < S_.numel
  bcast_S8x16384x16_S8x16384x16x1_0_1_2 : S8x16384x16.BroadcastsInDim S8x16384x16x1 (![0, 1, 2] : Fin 3 → Fin S8x16384x16x1.rank)
  concatenates_S8x16384x16x3_S8x16384x16x1_S8x16384x16x4_d3 : Shape.Concatenates [S8x16384x16x3, S8x16384x16x1] S8x16384x16x4 3
  bcast_S_S4 : S_.BroadcastsInDim S4 (![] : Fin 0 → Fin S4.rank)
  bcast_S4_S1x1x1x4_3 : S4.BroadcastsInDim S1x1x1x4 (![3] : Fin 1 → Fin S1x1x1x4.rank)
  bcast_S1x1x1x4_S8x16384x16x4_0_1_2_3 : S1x1x1x4.BroadcastsInDim S8x16384x16x4 (![0, 1, 2, 3] : Fin 4 → Fin S8x16384x16x4.rank)
  bcast_S_S8x16384x16x4 : S_.BroadcastsInDim S8x16384x16x4 (![] : Fin 0 → Fin S8x16384x16x4.rank)
  bcast_S_S8 : S_.BroadcastsInDim S8 (![] : Fin 0 → Fin S8.rank)
  bcast_S8_S1x1x1x8_3 : S8.BroadcastsInDim S1x1x1x8 (![3] : Fin 1 → Fin S1x1x1x8.rank)
  bcast_S1x1x1x8_S8x16384x16x8_0_1_2_3 : S1x1x1x8.BroadcastsInDim S8x16384x16x8 (![0, 1, 2, 3] : Fin 4 → Fin S8x16384x16x8.rank)
  bcast_S_S8x16384x16x8 : S_.BroadcastsInDim S8x16384x16x8 (![] : Fin 0 → Fin S8x16384x16x8.rank)
  dot_S8x16384x16x4_S4x4_S8x16384x16x4_3_1_012_0_n_n_wf : DotDims.WF S8x16384x16x4 S4x4 S8x16384x16x4 [3] [1] [0, 1, 2] [0] [] []
  dot_S8x16384x16x4_S8x4_S8x16384x16x8_3_1_012_0_n_n_wf : DotDims.WF S8x16384x16x4 S8x4 S8x16384x16x8 [3] [1] [0, 1, 2] [0] [] []

variable [Facts₀]

def dot_S8x16384x16x4_S4x4_S8x16384x16x4_3_1_012_0_n_n : DotDims S8x16384x16x4 S4x4 S8x16384x16x4 where
  lhsContracting := [3]
  rhsContracting := [1]
  lhsNonContracting := [0, 1, 2]
  rhsNonContracting := [0]
  lhsBatch := []
  rhsBatch := []
  wf := dot_S8x16384x16x4_S4x4_S8x16384x16x4_3_1_012_0_n_n_wf
def dot_S8x16384x16x4_S8x4_S8x16384x16x8_3_1_012_0_n_n : DotDims S8x16384x16x4 S8x4 S8x16384x16x8 where
  lhsContracting := [3]
  rhsContracting := [1]
  lhsNonContracting := [0, 1, 2]
  rhsNonContracting := [0]
  lhsBatch := []
  rhsBatch := []
  wf := dot_S8x16384x16x4_S8x4_S8x16384x16x8_3_1_012_0_n_n_wf

class Facts : Prop extends Facts₀ where

variable [Facts]
-- ==== Proof.Spec.lean ====
/-
  The mathematics both programs compute, written once over the extended reals.

  For one point and one of its sixteen neighbours: the relative coordinates `rel c = y c - x c` (c < 3), their
  Euclidean length `dist = √(∑ c, rel c ²)`, the four-channel encoding `[rel; dist]`, and two layers
  `h = max (W · enc · scale + bias) 0` (a 1×1 convolution, an inference batch norm folded to a scale and a bias, a ReLU).
  That is `rowR`.  `rowK` is the same computation as the kernel lays it out: the sixteen neighbours of a point side
  by side on the lane axis (48 = 16·3 relative coordinates, 64 = 16·4 hidden channels, 128 = 16·8 outputs), every
  per-neighbour product written as ONE product with a block-diagonal matrix whose off-diagonal blocks are zero,
  the copy of the point's coordinates to each neighbour and the sum of three squares written as products with 0/1 matrices.
  `Packed` says what those matrices hold; under it the two agree lane by lane (the law is in the next module).
-/
import Idealize.ShloMosaic.PureOps.Ideal
import Idealize.ShloMosaic.Lib.ValueIdx

noncomputable section

namespace Cert.PointMlp

open Idealize.ShloMosaic Idealize.ShloMosaic.ValueIdx

/-- A matrix of extended reals over a literal rank-2 shape. -/
abbrev Mat (a b : ℕ) : Type := (⟨2, ![a, b]⟩ : Shape).Idx → EReal
/-- A vector of extended reals over a literal rank-1 shape. -/
abbrev Vc (a : ℕ) : Type := (⟨1, ![a]⟩ : Shape).Idx → EReal

/-- The reference's computation for one point and one neighbour: `xr` the point, `yk` the neighbour, the result's
    eight channels. -/
def rowR (xr yk : Fin 3 → EReal) (W1 : Mat 4 4) (sc1 bi1 : Fin 4 → EReal) (W2 : Mat 8 4) (sc2 bi2 : Fin 8 → EReal) :
    Fin 8 → EReal :=
  let rel : Fin 3 → EReal := fun c => yk c - xr c
  let dist : EReal := Ideal.sqrt (∑ c : Fin 3, rel c * rel c)
  let enc : Fin 4 → EReal := fun c => if h : c.val < 3 then rel ⟨c.val, h⟩ else dist
  let hid : Fin 4 → EReal := fun o => max ((∑ c : Fin 4, enc c * W1 (ix2 o c)) * sc1 o + bi1 o) 0
  fun o => max ((∑ c : Fin 4, hid c * W2 (ix2 o c)) * sc2 o + bi2 o) 0

/-- The kernel's computation for one point: `xr` the point, `yr` its sixteen neighbours' coordinates side by side,
    the result's 128 lanes; every matrix an operand. -/
def rowK (xr : Fin 3 → EReal) (yr : Fin 48 → EReal) (T : Mat 3 48) (S : Mat 48 16) (A1 : Mat 48 64) (D1 : Mat 16 64)
    (A2 : Mat 64 128) (s1 b1 : Mat 1 64) (s2 b2 : Mat 1 128) : Fin 128 → EReal :=
  let rel : Fin 48 → EReal := fun l => yr l - ∑ j : Fin 3, xr j * T (ix2 j l)
  let dist : Fin 16 → EReal := fun k => Ideal.sqrt (∑ l : Fin 48, (rel l * rel l) * S (ix2 l k))
  let hid : Fin 64 → EReal := fun q =>
    max (((∑ l : Fin 48, rel l * A1 (ix2 l q)) + ∑ k : Fin 16, dist k * D1 (ix2 k q)) * s1 (ix2 0 q) + b1 (ix2 0 q)) 0
  fun j => max ((∑ q : Fin 64, hid q * A2 (ix2 q j)) * s2 (ix2 0 j) + b2 (ix2 0 j)) 0

/-- What the kernel's matrix operands hold: lane `l` of 48 is neighbour `l / 3`'s coordinate `l % 3`, lane `q` of 64
    neighbour `q / 4`'s hidden channel `q % 4`, lane `j` of 128 neighbour `j / 8`'s output channel `j % 8`. -/
structure Packed (W1 : Mat 4 4) (sc1 bi1 : Fin 4 → EReal) (W2 : Mat 8 4) (sc2 bi2 : Fin 8 → EReal)
    (T : Mat 3 48) (S : Mat 48 16) (A1 : Mat 48 64) (D1 : Mat 16 64) (A2 : Mat 64 128) (s1 b1 : Mat 1 64) (s2 b2 : Mat 1 128) :
    Prop where
  hT : ∀ (j : Fin 3) (l : Fin 48), T (ix2 j l) = if j.val = l.val % 3 then 1 else 0
  hS : ∀ (l : Fin 48) (k : Fin 16), S (ix2 l k) = if l.val / 3 = k.val then 1 else 0
  hA1 : ∀ (l : Fin 48) (q : Fin 64), A1 (ix2 l q)
      = if l.val / 3 = q.val / 4 then W1 (ix2 ⟨q.val % 4, Nat.mod_lt _ (by decide)⟩ ⟨l.val % 3, Nat.lt_trans (Nat.mod_lt _ (by decide)) (by decide)⟩) else 0
  hD1 : ∀ (k : Fin 16) (q : Fin 64), D1 (ix2 k q)
      = if k.val = q.val / 4 then W1 (ix2 ⟨q.val % 4, Nat.mod_lt _ (by decide)⟩ 3) else 0
  hA2 : ∀ (q : Fin 64) (j : Fin 128), A2 (ix2 q j)
      = if q.val / 4 = j.val / 8 then W2 (ix2 ⟨j.val % 8, Nat.mod_lt _ (by decide)⟩ ⟨q.val % 4, Nat.mod_lt _ (by decide)⟩) else 0
  hs1 : ∀ q : Fin 64, s1 (ix2 0 q) = sc1 ⟨q.val % 4, Nat.mod_lt _ (by decide)⟩
  hb1 : ∀ q : Fin 64, b1 (ix2 0 q) = bi1 ⟨q.val % 4, Nat.mod_lt _ (by decide)⟩
  hs2 : ∀ j : Fin 128, s2 (ix2 0 j) = sc2 ⟨j.val % 8, Nat.mod_lt _ (by decide)⟩
  hb2 : ∀ j : Fin 128, b2 (ix2 0 j) = bi2 ⟨j.val % 8, Nat.mod_lt _ (by decide)⟩

/-- The batch norm's scale, `g · (v + ε)^(-1/2)`, channel by channel (ε the f32 nearest 1e-5, the same word in both programs). -/
def bnScale {n : ℕ} (g v : Vc n) : Fin n → EReal :=
  fun o => g (ix1 o) * Ideal.rsqrt (v (ix1 o) + Ideal.ofBits .f32 0x3727C5AC#32)
/-- The batch norm's bias, `b - m · scale`. -/
def bnBias {n : ℕ} (b m : Vc n) (sc : Fin n → EReal) : Fin n → EReal :=
  fun o => b (ix1 o) - m (ix1 o) * sc o

/-- The result array, as one function of the twelve argument arrays. -/
def G (X : (⟨3, ![8, 16384, 3]⟩ : Shape).Idx → EReal) (Y : (⟨4, ![8, 16384, 16, 3]⟩ : Shape).Idx → EReal)
    (W1 : Mat 4 4) (g1 b1 m1 v1 : Vc 4) (W2 : Mat 8 4) (g2 b2 m2 v2 : Vc 8) :
    (⟨4, ![8, 16384, 16, 8]⟩ : Shape).Idx → EReal :=
  fun i => rowR (fun c => X (ix3 (i 0) (i 1) c)) (fun c => Y (ix4 (i 0) (i 1) (i 2) c))
    W1 (bnScale g1 v1) (bnBias b1 m1 (bnScale g1 v1)) W2 (bnScale g2 v2) (bnBias b2 m2 (bnScale g2 v2)) (i 3)

end Cert.PointMlp

end
-- ==== Proof.RefRead.lean ====
import proofs.«408793_j34239479284326_3_alg».proof.Proof.Gen.ReferenceIdeal.Read
import proofs.«408793_j34239479284326_3_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.PointMlp

/-- The relative coordinates: the neighbour's coordinate less the point's. -/
theorem v2_at (x0 : (⟨S8x16384x3, .f32⟩ : BufTy).Contents (Elt Ideal)) (x1 : (⟨S8x16384x16x3, .f32⟩ : BufTy).Contents (Elt Ideal))
    (b : Fin 8) (n : Fin 16384) (k : Fin 16) (c : Fin 3) :
    val_main_v2 (F := Ideal) x0 x1 (ix4 b n k c) = x1 (ix4 b n k c) - x0 (ix3 b n c) := by
  rw [val_main_v2_apply, val_main_v1_apply, val_main_v0_apply]
  have e : idx_main_v0 (idx_main_v1 (ix4 b n k c)) = ix3 b n c :=
    funext fun a => Fin.ext (by match a with | ⟨0, _⟩ => rfl | ⟨1, _⟩ => rfl | ⟨2, _⟩ => rfl)
  rw [e]; rfl

/-- The Euclidean length of the relative coordinates. -/
theorem v3_at (x0 : (⟨S8x16384x3, .f32⟩ : BufTy).Contents (Elt Ideal)) (x1 : (⟨S8x16384x16x3, .f32⟩ : BufTy).Contents (Elt Ideal))
    (b : Fin 8) (n : Fin 16384) (k : Fin 16) (z : Fin 1) :
    val_main_v3 (F := Ideal) x0 x1 (ix4 b n k z)
      = Ideal.sqrt (∑ c : Fin 3, (x1 (ix4 b n k c) - x0 (ix3 b n c)) * (x1 (ix4 b n k c) - x0 (ix3 b n c))) := by
  rw [val_main_v3_apply, val_main_call0_v2_apply, val_main_call0_v1_apply, val_main_call0_cst_apply]
  simp only [Ideal.hostUnary_sqrt_def, Ideal.ofBits_def, Ideal.ofBits_zero_f32, zero_add]
  refine congrArg Ideal.sqrt (Finset.sum_congr rfl fun c _ => ?_)
  rw [val_main_call0_v0_apply]
  have e : idx_main_call0_v1 (idx_main_call0_v2 (ix4 b n k z)) c = ix4 b n k c :=
    funext fun a => Fin.ext (by match a with | ⟨0, _⟩ => rfl | ⟨1, _⟩ => rfl | ⟨2, _⟩ => rfl | ⟨3, _⟩ => rfl)
  rw [e, v2_at]; rfl

/-- The four-channel encoding: the three relative coordinates, then their length. -/
theorem v4_at (x0 : (⟨S8x16384x3, .f32⟩ : BufTy).Contents (Elt Ideal)) (x1 : (⟨S8x16384x16x3, .f32⟩ : BufTy).Contents (Elt Ideal))
    (b : Fin 8) (n : Fin 16384) (k : Fin 16) (c : Fin 4) :
    val_main_v4 (F := Ideal) x0 x1 (ix4 b n k c)
      = if h : c.val < 3 then x1 (ix4 b n k ⟨c.val, h⟩) - x0 (ix3 b n ⟨c.val, h⟩)
        else Ideal.sqrt (∑ c : Fin 3, (x1 (ix4 b n k c) - x0 (ix3 b n c)) * (x1 (ix4 b n k c) - x0 (ix3 b n c))) := by
  by_cases h : c.val < 3
  · rw [dif_pos h, ← v2_at]
    unfold val_main_v4
    exact concatenate_pair_apply_left (t := S8x16384x16x4) (s₁ := S8x16384x16x3) (s₂ := S8x16384x16x1) 3
      (val_main_v2 (F := Ideal) x0 x1) (val_main_v3 (F := Ideal) x0 x1)
      concatenates_S8x16384x16x3_S8x16384x16x1_S8x16384x16x4_d3 (ix4 b n k c) rfl (ix4 b n k ⟨c.val, h⟩) (fun a => by
      match a with | ⟨0, _⟩ => rfl | ⟨1, _⟩ => rfl | ⟨2, _⟩ => rfl | ⟨3, _⟩ => rfl)
  · rw [dif_neg h, ← v3_at x0 x1 b n k 0]
    unfold val_main_v4
    exact concatenate_pair_apply_right (t := S8x16384x16x4) (s₁ := S8x16384x16x3) (s₂ := S8x16384x16x1) 3
      (val_main_v2 (F := Ideal) x0 x1) (val_main_v3 (F := Ideal) x0 x1)
      concatenates_S8x16384x16x3_S8x16384x16x1_S8x16384x16x4_d3 (ix4 b n k c) rfl rfl (ix4 b n k 0)
      (fun a ha => by
        match a with | ⟨0, _⟩ => rfl | ⟨1, _⟩ => rfl | ⟨2, _⟩ => rfl | ⟨3, _⟩ => exact absurd rfl ha)
      (by have := c.isLt; show 0 + 3 = c.val; omega)

/-- The first batch norm's scale, channel by channel. -/
theorem v9_at (x3 x6 : (⟨S4, .f32⟩ : BufTy).Contents (Elt Ideal)) (o : Fin 4) :
    val_main_v9 (F := Ideal) x3 x6 (ix1 o) = bnScale x3 x6 o := by
  rw [val_main_v9_apply, val_main_v8_apply, val_main_v7_apply, val_main_v6_apply, val_main_cst_apply]
  rfl

/-- The first batch norm's bias, channel by channel. -/
theorem v14_at (x3 x4 x5 x6 : (⟨S4, .f32⟩ : BufTy).Contents (Elt Ideal)) (o : Fin 4) :
    val_main_v14 (F := Ideal) x3 x4 x5 x6 (ix1 o) = bnBias x4 x5 (bnScale x3 x6) o := by
  rw [val_main_v14_apply, val_main_v13_apply, v9_at]
  rfl

/-- The second batch norm's scale, channel by channel. -/
theorem v23_at (x8 x11 : (⟨S8, .f32⟩ : BufTy).Contents (Elt Ideal)) (o : Fin 8) :
    val_main_v23 (F := Ideal) x8 x11 (ix1 o) = bnScale x8 x11 o := by
  rw [val_main_v23_apply, val_main_v22_apply, val_main_v21_apply, val_main_v20_apply, val_main_cst_0_apply]
  rfl

/-- The second batch norm's bias, channel by channel. -/
theorem v28_at (x8 x9 x10 x11 : (⟨S8, .f32⟩ : BufTy).Contents (Elt Ideal)) (o : Fin 8) :
    val_main_v28 (F := Ideal) x8 x9 x10 x11 (ix1 o) = bnBias x9 x10 (bnScale x8 x11) o := by
  rw [val_main_v28_apply, val_main_v27_apply, v23_at]
  rfl

/-- The hidden layer: the encoding through the first matrix, the folded batch norm, the maximum with zero. -/
theorem v18_at (x0 : (⟨S8x16384x3, .f32⟩ : BufTy).Contents (Elt Ideal)) (x1 : (⟨S8x16384x16x3, .f32⟩ : BufTy).Contents (Elt Ideal))
    (x2 : (⟨S4x4, .f32⟩ : BufTy).Contents (Elt Ideal)) (x3 x4 x5 x6 : (⟨S4, .f32⟩ : BufTy).Contents (Elt Ideal))
    (b : Fin 8) (n : Fin 16384) (k : Fin 16) (o : Fin 4) :
    val_main_v18 (F := Ideal) x0 x1 x2 x3 x4 x5 x6 (ix4 b n k o)
      = max ((∑ c : Fin 4, val_main_v4 (F := Ideal) x0 x1 (ix4 b n k c) * x2 (ix2 o c)) * bnScale x3 x6 o
          + bnBias x4 x5 (bnScale x3 x6) o) 0 := by
  rw [val_main_v18_apply, val_main_v17_apply, val_main_v12_apply, val_main_v5_apply, val_main_v11_apply, val_main_v10_apply,
    val_main_v16_apply, val_main_v15_apply, val_main_call1_v0_apply, val_main_call1_cst_apply]
  have e1 : idx_main_v10 (idx_main_v11 (ix4 b n k o)) = ix1 o :=
    funext fun a => Fin.ext (by match a with | ⟨0, _⟩ => rfl)
  have e2 : idx_main_v15 (idx_main_v16 (ix4 b n k o)) = ix1 o :=
    funext fun a => Fin.ext (by match a with | ⟨0, _⟩ => rfl)
  have el : ∀ c : Fin 4, lidx_main_v5 (ix4 b n k o) c = ix4 b n k c := fun c =>
    funext fun a => Fin.ext (by match a with | ⟨0, _⟩ => rfl | ⟨1, _⟩ => rfl | ⟨2, _⟩ => rfl | ⟨3, _⟩ => rfl)
  have er : ∀ c : Fin 4, ridx_main_v5 (ix4 b n k o) c = ix2 o c := fun c =>
    funext fun a => Fin.ext (by match a with | ⟨0, _⟩ => rfl | ⟨1, _⟩ => rfl)
  rw [e1, e2, v9_at, v14_at]
  simp only [el, er, Ideal.maximumf_def, Ideal.addf_def, Ideal.mulf_def, Ideal.ofBits_def, Ideal.ofBits_zero_f32]

/-- The reference's result at one point, one neighbour and one output channel is the specification's row computation. -/
theorem ref_at (x0 : (⟨S8x16384x3, .f32⟩ : BufTy).Contents (Elt Ideal)) (x1 : (⟨S8x16384x16x3, .f32⟩ : BufTy).Contents (Elt Ideal))
    (x2 : (⟨S4x4, .f32⟩ : BufTy).Contents (Elt Ideal)) (x3 x4 x5 x6 : (⟨S4, .f32⟩ : BufTy).Contents (Elt Ideal))
    (x7 : (⟨S8x4, .f32⟩ : BufTy).Contents (Elt Ideal)) (x8 x9 x10 x11 : (⟨S8, .f32⟩ : BufTy).Contents (Elt Ideal))
    (b : Fin 8) (n : Fin 16384) (k : Fin 16) (o : Fin 8) :
    val_main_v32 (F := Ideal) x0 x1 x2 x3 x4 x5 x6 x7 x8 x9 x10 x11 (ix4 b n k o)
      = rowR (fun c => x0 (ix3 b n c)) (fun c => x1 (ix4 b n k c)) x2 (bnScale x3 x6) (bnBias x4 x5 (bnScale x3 x6))
          x7 (bnScale x8 x11) (bnBias x9 x10 (bnScale x8 x11)) o := by
  rw [val_main_v32_apply, val_main_v31_apply, val_main_v26_apply, val_main_v19_apply, val_main_v25_apply, val_main_v24_apply,
    val_main_v30_apply, val_main_v29_apply, val_main_call2_v0_apply, val_main_call2_cst_apply]
  have e1 : idx_main_v24 (idx_main_v25 (ix4 b n k o)) = ix1 o :=
    funext fun a => Fin.ext (by match a with | ⟨0, _⟩ => rfl)
  have e2 : idx_main_v29 (idx_main_v30 (ix4 b n k o)) = ix1 o :=
    funext fun a => Fin.ext (by match a with | ⟨0, _⟩ => rfl)
  have el : ∀ c : Fin 4, lidx_main_v19 (ix4 b n k o) c = ix4 b n k c := fun c =>
    funext fun a => Fin.ext (by match a with | ⟨0, _⟩ => rfl | ⟨1, _⟩ => rfl | ⟨2, _⟩ => rfl | ⟨3, _⟩ => rfl)
  have er : ∀ c : Fin 4, ridx_main_v19 (ix4 b n k o) c = ix2 o c := fun c =>
    funext fun a => Fin.ext (by match a with | ⟨0, _⟩ => rfl | ⟨1, _⟩ => rfl)
  rw [e1, e2, v23_at, v28_at]
  simp only [el, er, v18_at, v4_at, Ideal.maximumf_def, Ideal.addf_def, Ideal.mulf_def, Ideal.ofBits_def, Ideal.ofBits_zero_f32]
  rfl

/-- The reference's result array is the specification's function of the twelve argument arrays, index by index. -/
theorem ref_is_G (x0 : (⟨S8x16384x3, .f32⟩ : BufTy).Contents (Elt Ideal)) (x1 : (⟨S8x16384x16x3, .f32⟩ : BufTy).Contents (Elt Ideal))
    (x2 : (⟨S4x4, .f32⟩ : BufTy).Contents (Elt Ideal)) (x3 x4 x5 x6 : (⟨S4, .f32⟩ : BufTy).Contents (Elt Ideal))
    (x7 : (⟨S8x4, .f32⟩ : BufTy).Contents (Elt Ideal)) (x8 x9 x10 x11 : (⟨S8, .f32⟩ : BufTy).Contents (Elt Ideal)) :
    val_main_v32 (F := Ideal) x0 x1 x2 x3 x4 x5 x6 x7 x8 x9 x10 x11 = G x0 x1 x2 x3 x4 x5 x6 x7 x8 x9 x10 x11 := by
  funext i
  obtain ⟨b, n, k, o, rfl⟩ : ∃ b n k o, i = ix4 b n k o := ⟨i 0, i 1, i 2, i 3, eq_ix4 i⟩
  rw [ref_at]
  rfl

end Cert.ReferenceIdeal.RefValue

end
-- ==== Proof.Payload.lean ====
import proofs.«408793_j34239479284326_3_alg».proof.Proof.Gen.KernelIdeal.Frame
import proofs.«408793_j34239479284326_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload

open Cert.KernelIdeal Cert.KernelIdeal.Gen Idealize.ShloMosaic Idealize.ShloMosaic.TcCoe Idealize.SL.Sem
open Idealize.ShloMosaic.ValueIdx Cert.PointMlp

/-! ## Each matrix product read at an index

For a [4096,K] × [K,N] product contracting the left operand's second axis with the right operand's first, the entry at
(r, j) reads the left operand at (r, k) and the right operand at (k, j), k the contraction position. -/

/-! ### The [4096,3] × [3,48] product -/

theorem lhs_T_0 (i : S4096x48.Idx) (q : dot_S4096x3_S3x48_S4096x48_1_0_0_1_n_n.contr.Idx) :
    (dot_S4096x3_S3x48_S4096x48_1_0_0_1_n_n.lhsIdx i q 0).val = (i 0).val := by
  unfold DotDims.lhsIdx
  rw [dif_neg (show ¬(0 : Fin S4096x3.rank) ∈ dot_S4096x3_S3x48_S4096x48_1_0_0_1_n_n.lhsBatch by decide), dif_pos (show (0 : Fin S4096x3.rank) ∈ dot_S4096x3_S3x48_S4096x48_1_0_0_1_n_n.lhsNonContracting by decide)]
  rfl
theorem lhs_T_1 (i : S4096x48.Idx) (q : dot_S4096x3_S3x48_S4096x48_1_0_0_1_n_n.contr.Idx) :
    (dot_S4096x3_S3x48_S4096x48_1_0_0_1_n_n.lhsIdx i q 1).val = (q ⟨0, by decide⟩).val :=
  dot_S4096x3_S3x48_S4096x48_1_0_0_1_n_n.lhsIdx_val_of_single rfl i q
theorem rhs_T_0 (i : S4096x48.Idx) (q : dot_S4096x3_S3x48_S4096x48_1_0_0_1_n_n.contr.Idx) :
    (dot_S4096x3_S3x48_S4096x48_1_0_0_1_n_n.rhsIdx i q 0).val = (q ⟨0, by decide⟩).val :=
  dot_S4096x3_S3x48_S4096x48_1_0_0_1_n_n.rhsIdx_val_of_single rfl i q
theorem rhs_T_1 (i : S4096x48.Idx) (q : dot_S4096x3_S3x48_S4096x48_1_0_0_1_n_n.contr.Idx) :
    (dot_S4096x3_S3x48_S4096x48_1_0_0_1_n_n.rhsIdx i q 1).val = (i 1).val := by
  unfold DotDims.rhsIdx
  rw [dif_neg (show ¬(1 : Fin S3x48.rank) ∈ dot_S4096x3_S3x48_S4096x48_1_0_0_1_n_n.rhsBatch by decide), dif_pos (show (1 : Fin S3x48.rank) ∈ dot_S4096x3_S3x48_S4096x48_1_0_0_1_n_n.rhsNonContracting by decide)]
  rfl

/-- Entry (r, j) of the product into a zero accumulator is the sum over k of lhs (r, k) · rhs (k, j). -/
theorem mm_T_apply (lhs : FVec Ideal S4096x3 .f32) (rhs : FVec Ideal S3x48 .f32) (r : Fin 4096) (j : Fin 48) :
    matmul dot_S4096x3_S3x48_S4096x48_1_0_0_1_n_n (some .fp32) lhs rhs (constant S4096x48 .f32 0x00000000#32) (ix2 r j)
      = ∑ k : Fin 3, lhs (ix2 r k) * rhs (ix2 k j) := by
  simp only [matmul]
  rw [Ideal.matmul_constant_zero_apply, ← Equiv.sum_comp (ValueIdx.contrEquiv1 dot_S4096x3_S3x48_S4096x48_1_0_0_1_n_n 3 rfl rfl).symm]
  refine Finset.sum_congr rfl fun k _ => ?_
  have hk := ValueIdx.contrEquiv1_symm_val dot_S4096x3_S3x48_S4096x48_1_0_0_1_n_n 3 rfl rfl k
  have el : dot_S4096x3_S3x48_S4096x48_1_0_0_1_n_n.lhsIdx (ix2 r j) ((ValueIdx.contrEquiv1 dot_S4096x3_S3x48_S4096x48_1_0_0_1_n_n 3 rfl rfl).symm k) = ix2 r k := funext fun a => Fin.ext (by
    match a with
    | ⟨0, _⟩ => exact lhs_T_0 _ _
    | ⟨1, _⟩ => exact (lhs_T_1 _ _).trans hk)
  have er : dot_S4096x3_S3x48_S4096x48_1_0_0_1_n_n.rhsIdx (ix2 r j) ((ValueIdx.contrEquiv1 dot_S4096x3_S3x48_S4096x48_1_0_0_1_n_n 3 rfl rfl).symm k) = ix2 k j := funext fun a => Fin.ext (by
    match a with
    | ⟨0, _⟩ => exact (rhs_T_0 _ _).trans hk
    | ⟨1, _⟩ => exact rhs_T_1 _ _)
  rw [el, er]

/-! ### The [4096,48] × [48,16] product -/

theorem lhs_S_0 (i : S4096x16.Idx) (q : dot_S4096x48_S48x16_S4096x16_1_0_0_1_n_n.contr.Idx) :
    (dot_S4096x48_S48x16_S4096x16_1_0_0_1_n_n.lhsIdx i q 0).val = (i 0).val := by
  unfold DotDims.lhsIdx
  rw [dif_neg (show ¬(0 : Fin S4096x48.rank) ∈ dot_S4096x48_S48x16_S4096x16_1_0_0_1_n_n.lhsBatch by decide), dif_pos (show (0 : Fin S4096x48.rank) ∈ dot_S4096x48_S48x16_S4096x16_1_0_0_1_n_n.lhsNonContracting by decide)]
  rfl
theorem lhs_S_1 (i : S4096x16.Idx) (q : dot_S4096x48_S48x16_S4096x16_1_0_0_1_n_n.contr.Idx) :
    (dot_S4096x48_S48x16_S4096x16_1_0_0_1_n_n.lhsIdx i q 1).val = (q ⟨0, by decide⟩).val :=
  dot_S4096x48_S48x16_S4096x16_1_0_0_1_n_n.lhsIdx_val_of_single rfl i q
theorem rhs_S_0 (i : S4096x16.Idx) (q : dot_S4096x48_S48x16_S4096x16_1_0_0_1_n_n.contr.Idx) :
    (dot_S4096x48_S48x16_S4096x16_1_0_0_1_n_n.rhsIdx i q 0).val = (q ⟨0, by decide⟩).val :=
  dot_S4096x48_S48x16_S4096x16_1_0_0_1_n_n.rhsIdx_val_of_single rfl i q
theorem rhs_S_1 (i : S4096x16.Idx) (q : dot_S4096x48_S48x16_S4096x16_1_0_0_1_n_n.contr.Idx) :
    (dot_S4096x48_S48x16_S4096x16_1_0_0_1_n_n.rhsIdx i q 1).val = (i 1).val := by
  unfold DotDims.rhsIdx
  rw [dif_neg (show ¬(1 : Fin S48x16.rank) ∈ dot_S4096x48_S48x16_S4096x16_1_0_0_1_n_n.rhsBatch by decide), dif_pos (show (1 : Fin S48x16.rank) ∈ dot_S4096x48_S48x16_S4096x16_1_0_0_1_n_n.rhsNonContracting by decide)]
  rfl

/-- Entry (r, j) of the product into a zero accumulator is the sum over k of lhs (r, k) · rhs (k, j). -/
theorem mm_S_apply (lhs : FVec Ideal S4096x48 .f32) (rhs : FVec Ideal S48x16 .f32) (r : Fin 4096) (j : Fin 16) :
    matmul dot_S4096x48_S48x16_S4096x16_1_0_0_1_n_n (some .fp32) lhs rhs (constant S4096x16 .f32 0x00000000#32) (ix2 r j)
      = ∑ k : Fin 48, lhs (ix2 r k) * rhs (ix2 k j) := by
  simp only [matmul]
  rw [Ideal.matmul_constant_zero_apply, ← Equiv.sum_comp (ValueIdx.contrEquiv1 dot_S4096x48_S48x16_S4096x16_1_0_0_1_n_n 48 rfl rfl).symm]
  refine Finset.sum_congr rfl fun k _ => ?_
  have hk := ValueIdx.contrEquiv1_symm_val dot_S4096x48_S48x16_S4096x16_1_0_0_1_n_n 48 rfl rfl k
  have el : dot_S4096x48_S48x16_S4096x16_1_0_0_1_n_n.lhsIdx (ix2 r j) ((ValueIdx.contrEquiv1 dot_S4096x48_S48x16_S4096x16_1_0_0_1_n_n 48 rfl rfl).symm k) = ix2 r k := funext fun a => Fin.ext (by
    match a with
    | ⟨0, _⟩ => exact lhs_S_0 _ _
    | ⟨1, _⟩ => exact (lhs_S_1 _ _).trans hk)
  have er : dot_S4096x48_S48x16_S4096x16_1_0_0_1_n_n.rhsIdx (ix2 r j) ((ValueIdx.contrEquiv1 dot_S4096x48_S48x16_S4096x16_1_0_0_1_n_n 48 rfl rfl).symm k) = ix2 k j := funext fun a => Fin.ext (by
    match a with
    | ⟨0, _⟩ => exact (rhs_S_0 _ _).trans hk
    | ⟨1, _⟩ => exact rhs_S_1 _ _)
  rw [el, er]

/-! ### The [4096,48] × [48,64] product -/

theorem lhs_A1_0 (i : S4096x64.Idx) (q : dot_S4096x48_S48x64_S4096x64_1_0_0_1_n_n.contr.Idx) :
    (dot_S4096x48_S48x64_S4096x64_1_0_0_1_n_n.lhsIdx i q 0).val = (i 0).val := by
  unfold DotDims.lhsIdx
  rw [dif_neg (show ¬(0 : Fin S4096x48.rank) ∈ dot_S4096x48_S48x64_S4096x64_1_0_0_1_n_n.lhsBatch by decide), dif_pos (show (0 : Fin S4096x48.rank) ∈ dot_S4096x48_S48x64_S4096x64_1_0_0_1_n_n.lhsNonContracting by decide)]
  rfl
theorem lhs_A1_1 (i : S4096x64.Idx) (q : dot_S4096x48_S48x64_S4096x64_1_0_0_1_n_n.contr.Idx) :
    (dot_S4096x48_S48x64_S4096x64_1_0_0_1_n_n.lhsIdx i q 1).val = (q ⟨0, by decide⟩).val :=
  dot_S4096x48_S48x64_S4096x64_1_0_0_1_n_n.lhsIdx_val_of_single rfl i q
theorem rhs_A1_0 (i : S4096x64.Idx) (q : dot_S4096x48_S48x64_S4096x64_1_0_0_1_n_n.contr.Idx) :
    (dot_S4096x48_S48x64_S4096x64_1_0_0_1_n_n.rhsIdx i q 0).val = (q ⟨0, by decide⟩).val :=
  dot_S4096x48_S48x64_S4096x64_1_0_0_1_n_n.rhsIdx_val_of_single rfl i q
theorem rhs_A1_1 (i : S4096x64.Idx) (q : dot_S4096x48_S48x64_S4096x64_1_0_0_1_n_n.contr.Idx) :
    (dot_S4096x48_S48x64_S4096x64_1_0_0_1_n_n.rhsIdx i q 1).val = (i 1).val := by
  unfold DotDims.rhsIdx
  rw [dif_neg (show ¬(1 : Fin S48x64.rank) ∈ dot_S4096x48_S48x64_S4096x64_1_0_0_1_n_n.rhsBatch by decide), dif_pos (show (1 : Fin S48x64.rank) ∈ dot_S4096x48_S48x64_S4096x64_1_0_0_1_n_n.rhsNonContracting by decide)]
  rfl

/-- Entry (r, j) of the product into a zero accumulator is the sum over k of lhs (r, k) · rhs (k, j). -/
theorem mm_A1_apply (lhs : FVec Ideal S4096x48 .bf16) (rhs : FVec Ideal S48x64 .bf16) (r : Fin 4096) (j : Fin 64) :
    matmul dot_S4096x48_S48x64_S4096x64_1_0_0_1_n_n none lhs rhs (constant S4096x64 .f32 0x00000000#32) (ix2 r j)
      = ∑ k : Fin 48, lhs (ix2 r k) * rhs (ix2 k j) := by
  simp only [matmul]
  rw [Ideal.matmul_constant_zero_apply, ← Equiv.sum_comp (ValueIdx.contrEquiv1 dot_S4096x48_S48x64_S4096x64_1_0_0_1_n_n 48 rfl rfl).symm]
  refine Finset.sum_congr rfl fun k _ => ?_
  have hk := ValueIdx.contrEquiv1_symm_val dot_S4096x48_S48x64_S4096x64_1_0_0_1_n_n 48 rfl rfl k
  have el : dot_S4096x48_S48x64_S4096x64_1_0_0_1_n_n.lhsIdx (ix2 r j) ((ValueIdx.contrEquiv1 dot_S4096x48_S48x64_S4096x64_1_0_0_1_n_n 48 rfl rfl).symm k) = ix2 r k := funext fun a => Fin.ext (by
    match a with
    | ⟨0, _⟩ => exact lhs_A1_0 _ _
    | ⟨1, _⟩ => exact (lhs_A1_1 _ _).trans hk)
  have er : dot_S4096x48_S48x64_S4096x64_1_0_0_1_n_n.rhsIdx (ix2 r j) ((ValueIdx.contrEquiv1 dot_S4096x48_S48x64_S4096x64_1_0_0_1_n_n 48 rfl rfl).symm k) = ix2 k j := funext fun a => Fin.ext (by
    match a with
    | ⟨0, _⟩ => exact (rhs_A1_0 _ _).trans hk
    | ⟨1, _⟩ => exact rhs_A1_1 _ _)
  rw [el, er]

/-! ### The [4096,16] × [16,64] product -/

theorem lhs_D1_0 (i : S4096x64.Idx) (q : dot_S4096x16_S16x64_S4096x64_1_0_0_1_n_n.contr.Idx) :
    (dot_S4096x16_S16x64_S4096x64_1_0_0_1_n_n.lhsIdx i q 0).val = (i 0).val := by
  unfold DotDims.lhsIdx
  rw [dif_neg (show ¬(0 : Fin S4096x16.rank) ∈ dot_S4096x16_S16x64_S4096x64_1_0_0_1_n_n.lhsBatch by decide), dif_pos (show (0 : Fin S4096x16.rank) ∈ dot_S4096x16_S16x64_S4096x64_1_0_0_1_n_n.lhsNonContracting by decide)]
  rfl
theorem lhs_D1_1 (i : S4096x64.Idx) (q : dot_S4096x16_S16x64_S4096x64_1_0_0_1_n_n.contr.Idx) :
    (dot_S4096x16_S16x64_S4096x64_1_0_0_1_n_n.lhsIdx i q 1).val = (q ⟨0, by decide⟩).val :=
  dot_S4096x16_S16x64_S4096x64_1_0_0_1_n_n.lhsIdx_val_of_single rfl i q
theorem rhs_D1_0 (i : S4096x64.Idx) (q : dot_S4096x16_S16x64_S4096x64_1_0_0_1_n_n.contr.Idx) :
    (dot_S4096x16_S16x64_S4096x64_1_0_0_1_n_n.rhsIdx i q 0).val = (q ⟨0, by decide⟩).val :=
  dot_S4096x16_S16x64_S4096x64_1_0_0_1_n_n.rhsIdx_val_of_single rfl i q
theorem rhs_D1_1 (i : S4096x64.Idx) (q : dot_S4096x16_S16x64_S4096x64_1_0_0_1_n_n.contr.Idx) :
    (dot_S4096x16_S16x64_S4096x64_1_0_0_1_n_n.rhsIdx i q 1).val = (i 1).val := by
  unfold DotDims.rhsIdx
  rw [dif_neg (show ¬(1 : Fin S16x64.rank) ∈ dot_S4096x16_S16x64_S4096x64_1_0_0_1_n_n.rhsBatch by decide), dif_pos (show (1 : Fin S16x64.rank) ∈ dot_S4096x16_S16x64_S4096x64_1_0_0_1_n_n.rhsNonContracting by decide)]
  rfl

/-- Entry (r, j) of the product into a zero accumulator is the sum over k of lhs (r, k) · rhs (k, j). -/
theorem mm_D1_apply (lhs : FVec Ideal S4096x16 .bf16) (rhs : FVec Ideal S16x64 .bf16) (r : Fin 4096) (j : Fin 64) :
    matmul dot_S4096x16_S16x64_S4096x64_1_0_0_1_n_n none lhs rhs (constant S4096x64 .f32 0x00000000#32) (ix2 r j)
      = ∑ k : Fin 16, lhs (ix2 r k) * rhs (ix2 k j) := by
  simp only [matmul]
  rw [Ideal.matmul_constant_zero_apply, ← Equiv.sum_comp (ValueIdx.contrEquiv1 dot_S4096x16_S16x64_S4096x64_1_0_0_1_n_n 16 rfl rfl).symm]
  refine Finset.sum_congr rfl fun k _ => ?_
  have hk := ValueIdx.contrEquiv1_symm_val dot_S4096x16_S16x64_S4096x64_1_0_0_1_n_n 16 rfl rfl k
  have el : dot_S4096x16_S16x64_S4096x64_1_0_0_1_n_n.lhsIdx (ix2 r j) ((ValueIdx.contrEquiv1 dot_S4096x16_S16x64_S4096x64_1_0_0_1_n_n 16 rfl rfl).symm k) = ix2 r k := funext fun a => Fin.ext (by
    match a with
    | ⟨0, _⟩ => exact lhs_D1_0 _ _
    | ⟨1, _⟩ => exact (lhs_D1_1 _ _).trans hk)
  have er : dot_S4096x16_S16x64_S4096x64_1_0_0_1_n_n.rhsIdx (ix2 r j) ((ValueIdx.contrEquiv1 dot_S4096x16_S16x64_S4096x64_1_0_0_1_n_n 16 rfl rfl).symm k) = ix2 k j := funext fun a => Fin.ext (by
    match a with
    | ⟨0, _⟩ => exact (rhs_D1_0 _ _).trans hk
    | ⟨1, _⟩ => exact rhs_D1_1 _ _)
  rw [el, er]

/-! ### The [4096,64] × [64,128] product -/

theorem lhs_A2_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs_A2_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_A2_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_A2_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- Entry (r, j) of the product into a zero accumulator is the sum over k of lhs (r, k) · rhs (k, j). -/
theorem mm_A2_apply (lhs : FVec Ideal S4096x64 .bf16) (rhs : FVec Ideal S64x128 .bf16) (r : Fin 4096) (j : Fin 128) :
    matmul dot_S4096x64_S64x128_S4096x128_1_0_0_1_n_n none lhs rhs (constant S4096x128 .f32 0x00000000#32) (ix2 r j)
      = ∑ k : Fin 64, lhs (ix2 r k) * rhs (ix2 k j) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 r j) ((ValueIdx.contrEquiv1 dot_S4096x64_S64x128_S4096x128_1_0_0_1_n_n 64 rfl rfl).symm k) = ix2 r k := funext fun a => Fin.ext (by
    match a with
    | ⟨0, _⟩ => exact lhs_A2_0 _ _
    | ⟨1, _⟩ => exact (lhs_A2_1 _ _).trans hk)
  have er : dot_S4096x64_S64x128_S4096x128_1_0_0_1_n_n.rhsIdx (ix2 r j) ((ValueIdx.contrEquiv1 dot_S4096x64_S64x128_S4096x128_1_0_0_1_n_n 64 rfl rfl).symm k) = ix2 k j := funext fun a => Fin.ext (by
    match a with
    | ⟨0, _⟩ => exact (rhs_A2_0 _ _).trans hk
    | ⟨1, _⟩ => exact rhs_A2_1 _ _)
  rw [el, er]

/-! ### The two payloads read at an index -/

/-- The square root of an array, entry by entry. -/
theorem sqrt_apply {s : Shape} {φ : FTy} (a : FVec Ideal s φ) (i : s.Idx) : sqrt a i = Ideal.sqrt (a i) := rfl

/-- The first payload (the hidden layer, 64 lanes) at row r and lane q: the relative coordinates of row r
    (the neighbours' block minus the point's coordinates copied by T), their lengths (the sums of squares picked by S,
    then the square root), the two products with A1 and D1 added, the scale, the bias and the maximum with zero. -/
theorem pay2_apply (v0 : Vec Ideal S1x4096x3 .f32) (v2 : Vec Ideal S1x4096x48 .f32) (v4 : Vec Ideal S3x48 .f32)
    (v9 : Vec Ideal S48x16 .f32) (v14 : Vec Ideal S48x64 .f32) (v19 : Vec Ideal S16x64 .f32)
    (v24 v26 : Vec Ideal S1x64 .f32) (r : Fin 4096) (q : Fin 64) :
    k0_pay2 v0 v2 v4 v9 v14 v19 v24 v26 (ix2 r q)
      = max (((∑ l : Fin 48, (v2 (ix3 0 r l) - ∑ j : Fin 3, v0 (ix3 0 r j) * v4 (ix2 j l)) * v14 (ix2 l q))
          + ∑ k : Fin 16, Ideal.sqrt (∑ l : Fin 48,
              ((v2 (ix3 0 r l) - ∑ j : Fin 3, v0 (ix3 0 r j) * v4 (ix2 j l))
                * (v2 (ix3 0 r l) - ∑ j : Fin 3, v0 (ix3 0 r j) * v4 (ix2 j l))) * v9 (ix2 l k)) * v19 (ix2 k q))
          * v24 (ix2 0 q) + v26 (ix2 0 q)) 0 := by
  unfold k0_pay2
  simp only [shapeCast_self]
  simp only [truncf_apply, maximumf_apply, addf_apply, mulf_apply, subf_apply, broadcast_apply, sqrt_apply,
    mm_T_apply, mm_S_apply, mm_A1_apply, mm_D1_apply, broadcastTo_1b_ab_apply, shapeCast_1ab_ab_apply,
    Ideal.ofBits_def, Ideal.ofBits_zero_f32]

/-- The second payload (the output layer, 128 lanes) at row r and lane j, from the hidden layer's array h: the product
    with A2, the scale, the bias and the maximum with zero. -/
theorem pay1_apply (h : FVec Ideal S4096x64 .bf16) (v35 : Vec Ideal S64x128 .f32) (v39 v41 : Vec Ideal S1x128 .f32)
    (r : Fin 4096) (j : Fin 128) :
    k0_pay1 h v35 v39 v41 (ix3 0 r j)
      = max ((∑ q : Fin 64, h (ix2 r q) * v35 (ix2 q j)) * v39 (ix2 0 j) + v41 (ix2 0 j)) 0 := by
  unfold k0_pay1
  simp only [shapeCast_self]
  simp only [shapeCast_ab_1ab_apply, truncf_apply, maximumf_apply, addf_apply, mulf_apply, broadcast_apply,
    mm_A2_apply, broadcastTo_1b_ab_apply, Ideal.ofBits_def, Ideal.ofBits_zero_f32]

/-! ## The output block -/

theorem pay_off3_zero : (![0, 0, 0] : Fin 3 → Nat) = fun _ => 0 := funext fun a => by fin_cases a <;> rfl
theorem pay_off2_zero : (![0, 0] : Fin 2 → Nat) = fun _ => 0 := funext fun a => by fin_cases a <;> rfl

/-- What the body leaves in the output block, read at row r and lane j: the lane-packed computation of that row's point
    from row r of the two coordinate blocks and the whole matrix operands. -/
theorem out_apply (x0 : Vec Ideal S1x4096x3 .f32) (x1 : Vec Ideal S1x4096x48 .f32) (x2 : Vec Ideal S3x48 .f32)
    (x3 : Vec Ideal S48x16 .f32) (x4 : Vec Ideal S48x64 .f32) (x5 : Vec Ideal S16x64 .f32) (x6 : Vec Ideal S64x128 .f32)
    (x7 x8 : Vec Ideal S1x64 .f32) (x9 x10 : Vec Ideal S1x128 .f32) (r : Fin 4096) (j : Fin 128) :
    out0_11 x0 x1 x2 x3 x4 x5 x6 x7 x8 x9 x10 (ix3 0 r j)
      = rowK (fun c => x0 (ix3 0 r c)) (fun l => x1 (ix3 0 r l)) x2 x3 x4 x5 x6 x7 x8 x9 x10 j := by
  unfold Gen.out0_11
  rw [View.canon_unit_zero pay_off3_zero]
  simp only [View.ld_unit_zero (S := S1x4096x3) pay_off3_zero, View.ld_unit_zero (S := S1x4096x48) pay_off3_zero,
    View.ld_unit_zero (S := S3x48) pay_off2_zero, View.ld_unit_zero (S := S48x16) pay_off2_zero, View.ld_unit_zero (S := S48x64) pay_off2_zero,
    View.ld_unit_zero (S := S16x64) pay_off2_zero, View.ld_unit_zero (S := S64x128) pay_off2_zero, View.ld_unit_zero (S := S1x64) pay_off2_zero,
    View.ld_unit_zero (S := S1x128) pay_off2_zero]
  rw [pay1_apply]
  simp only [pay2_apply]
  rfl

end Cert.KernelIdeal.Payload

end
-- ==== Proof.KernelValue.lean ====
import proofs.«408793_j34239479284326_3_alg».proof.Proof.Gen.KernelIdeal.Frame
import proofs.«408793_j34239479284326_3_alg».proof.Proof.Spec
import proofs.«408793_j34239479284326_3_alg».proof.Proof.Payload
import Idealize.ShloMosaic.Lib.StableHlo.Run
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.PointMlp

variable (m : (ℓ : Loc nD τ sig) → Buf (Elt Ideal) ℓ) (ρ : Dev nD → PrngReg)

/-- The lane-packed result array [8, 16384, 128] as one function of the arrays the region finds: row (b, n) is the
    lane-packed computation of point (b, n) from its coordinates, its neighbours' 48 lanes and the matrix operands. -/
def packed (c : Dev nD) : S8x16384x128.Idx → EReal := fun i =>
  rowK (fun cc => (V m c main_arg0 : S8x16384x3.Idx → EReal) (ix3 (i 0) (i 1) cc))
    (fun l => (V m c main_v0 : S8x16384x48.Idx → EReal) (ix3 (i 0) (i 1) l))
    (V m c main_v15) (V m c main_v17) (V m c main_v20) (V m c main_v23) (V m c main_v25)
    (V m c main_v35) (V m c main_v39) (V m c main_v49) (V m c main_v53) (i 2)

/-- The printed index maps over the grid of 8 × 4 points: the two coordinate windows move with the output window
    (block (b, q) of rows, the lane axis whole), the nine matrix operands stay at block (0, 0). -/
theorem idx_facts : ∀ t : Fin cfg0.N,
    win0_0.index t (0 : Fin 3) = win0_11.index t (0 : Fin 3) ∧ win0_0.index t (1 : Fin 3) = win0_11.index t (1 : Fin 3)
    ∧ win0_0.index t (2 : Fin 3) = 0
    ∧ win0_1.index t (0 : Fin 3) = win0_11.index t (0 : Fin 3) ∧ win0_1.index t (1 : Fin 3) = win0_11.index t (1 : Fin 3)
    ∧ win0_1.index t (2 : Fin 3) = 0 ∧ win0_11.index t (2 : Fin 3) = 0
    ∧ win0_11.index t (0 : Fin 3) ≤ 7 ∧ win0_11.index t (1 : Fin 3) ≤ 3 :=
  (by decide +kernel : ∀ t : Fin grid0.N, _)

theorem idx_const : ∀ t : Fin cfg0.N,
    win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] :=
  (by decide +kernel : ∀ t : Fin grid0.N, _)

/-- Every block of rows is some point's. -/
theorem idx_onto : ∀ (q0 : Fin 8) (q1 : Fin 4), ∃ t : Fin cfg0.N, win0_11.index t = ![q0.val, q1.val, 0] :=
  (by decide +kernel : ∀ (q0 : Fin 8) (q1 : Fin 4), ∃ t : Fin grid0.N, win0_11.index t = ![q0.val, q1.val, 0])

/-- A matrix operand's window is its whole array at every point. -/
theorem whole2 (c : Dev nD) (t : Fin cfg0.N) : (iblk m c 2 t : S3x48.Idx → EReal) = V m c main_v15 := by
  obtain ⟨e2, -⟩ := idx_const t
  funext y
  show V m c main_v15 (((cfg0.win 2).blk t).view.emb y) = V m c main_v15 y
  refine congrArg _ (funext fun a => Fin.ext ?_)
  match a with
  | ⟨0, _⟩ => show win0_2.index t (0 : Fin 2) * 3 + 1 * (y 0).val = (y 0).val; rw [e2]; show 0 * 3 + 1 * (y 0).val = _; omega
  | ⟨1, _⟩ => show win0_2.index t (1 : Fin 2) * 48 + 1 * (y 1).val = (y 1).val; rw [e2]; show 0 * 48 + 1 * (y 1).val = _; omega
theorem whole3 (c : Dev nD) (t : Fin cfg0.N) : (iblk m c 3 t : S48x16.Idx → EReal) = V m c main_v17 := by
  obtain ⟨-, e, -⟩ := idx_const t
  funext y
  show V m c main_v17 (((cfg0.win 3).blk t).view.emb y) = V m c main_v17 y
  refine congrArg _ (funext fun a => Fin.ext ?_)
  match a with
  | ⟨0, _⟩ => show win0_3.index t (0 : Fin 2) * 48 + 1 * (y 0).val = (y 0).val; rw [e]; show 0 * 48 + 1 * (y 0).val = _; omega
  | ⟨1, _⟩ => show win0_3.index t (1 : Fin 2) * 16 + 1 * (y 1).val = (y 1).val; rw [e]; show 0 * 16 + 1 * (y 1).val = _; omega
theorem whole4 (c : Dev nD) (t : Fin cfg0.N) : (iblk m c 4 t : S48x64.Idx → EReal) = V m c main_v20 := by
  obtain ⟨-, -, e, -⟩ := idx_const t
  funext y
  show V m c main_v20 (((cfg0.win 4).blk t).view.emb y) = V m c main_v20 y
  refine congrArg _ (funext fun a => Fin.ext ?_)
  match a with
  | ⟨0, _⟩ => show win0_4.index t (0 : Fin 2) * 48 + 1 * (y 0).val = (y 0).val; rw [e]; show 0 * 48 + 1 * (y 0).val = _; omega
  | ⟨1, _⟩ => show win0_4.index t (1 : Fin 2) * 64 + 1 * (y 1).val = (y 1).val; rw [e]; show 0 * 64 + 1 * (y 1).val = _; omega
theorem whole5 (c : Dev nD) (t : Fin cfg0.N) : (iblk m c 5 t : S16x64.Idx → EReal) = V m c main_v23 := by
  obtain ⟨-, -, -, e, -⟩ := idx_const t
  funext y
  show V m c main_v23 (((cfg0.win 5).blk t).view.emb y) = V m c main_v23 y
  refine congrArg _ (funext fun a => Fin.ext ?_)
  match a with
  | ⟨0, _⟩ => show win0_5.index t (0 : Fin 2) * 16 + 1 * (y 0).val = (y 0).val; rw [e]; show 0 * 16 + 1 * (y 0).val = _; omega
  | ⟨1, _⟩ => show win0_5.index t (1 : Fin 2) * 64 + 1 * (y 1).val = (y 1).val; rw [e]; show 0 * 64 + 1 * (y 1).val = _; omega
theorem whole6 (c : Dev nD) (t : Fin cfg0.N) : (iblk m c 6 t : S64x128.Idx → EReal) = V m c main_v25 := by
  obtain ⟨-, -, -, -, e, -⟩ := idx_const t
  funext y
  show V m c main_v25 (((cfg0.win 6).blk t).view.emb y) = V m c main_v25 y
  refine congrArg _ (funext fun a => Fin.ext ?_)
  match a with
  | ⟨0, _⟩ => show win0_6.index t (0 : Fin 2) * 64 + 1 * (y 0).val = (y 0).val; rw [e]; show 0 * 64 + 1 * (y 0).val = _; omega
  | ⟨1, _⟩ => show win0_6.index t (1 : Fin 2) * 128 + 1 * (y 1).val = (y 1).val; rw [e]; show 0 * 128 + 1 * (y 1).val = _; omega
theorem whole7 (c : Dev nD) (t : Fin cfg0.N) : (iblk m c 7 t : S1x64.Idx → EReal) = V m c main_v35 := by
  obtain ⟨-, -, -, -, -, e, -⟩ := idx_const t
  funext y
  show V m c main_v35 (((cfg0.win 7).blk t).view.emb y) = V m c main_v35 y
  refine congrArg _ (funext fun a => Fin.ext ?_)
  match a with
  | ⟨0, _⟩ => show win0_7.index t (0 : Fin 2) * 1 + 1 * (y 0).val = (y 0).val; rw [e]; show 0 * 1 + 1 * (y 0).val = _; omega
  | ⟨1, _⟩ => show win0_7.index t (1 : Fin 2) * 64 + 1 * (y 1).val = (y 1).val; rw [e]; show 0 * 64 + 1 * (y 1).val = _; omega
theorem whole8 (c : Dev nD) (t : Fin cfg0.N) : (iblk m c 8 t : S1x64.Idx → EReal) = V m c main_v39 := by
  obtain ⟨-, -, -, -, -, -, e, -⟩ := idx_const t
  funext y
  show V m c main_v39 (((cfg0.win 8).blk t).view.emb y) = V m c main_v39 y
  refine congrArg _ (funext fun a => Fin.ext ?_)
  match a with
  | ⟨0, _⟩ => show win0_8.index t (0 : Fin 2) * 1 + 1 * (y 0).val = (y 0).val; rw [e]; show 0 * 1 + 1 * (y 0).val = _; omega
  | ⟨1, _⟩ => show win0_8.index t (1 : Fin 2) * 64 + 1 * (y 1).val = (y 1).val; rw [e]; show 0 * 64 + 1 * (y 1).val = _; omega
theorem whole9 (c : Dev nD) (t : Fin cfg0.N) : (iblk m c 9 t : S1x128.Idx → EReal) = V m c main_v49 := by
  obtain ⟨-, -, -, -, -, -, -, e, -⟩ := idx_const t
  funext y
  show V m c main_v49 (((cfg0.win 9).blk t).view.emb y) = V m c main_v49 y
  refine congrArg _ (funext fun a => Fin.ext ?_)
  match a with
  | ⟨0, _⟩ => show win0_9.index t (0 : Fin 2) * 1 + 1 * (y 0).val = (y 0).val; rw [e]; show 0 * 1 + 1 * (y 0).val = _; omega
  | ⟨1, _⟩ => show win0_9.index t (1 : Fin 2) * 128 + 1 * (y 1).val = (y 1).val; rw [e]; show 0 * 128 + 1 * (y 1).val = _; omega
theorem whole10 (c : Dev nD) (t : Fin cfg0.N) : (iblk m c 10 t : S1x128.Idx → EReal) = V m c main_v53 := by
  obtain ⟨-, -, -, -, -, -, -, -, e⟩ := idx_const t
  funext y
  show V m c main_v53 (((cfg0.win 10).blk t).view.emb y) = V m c main_v53 y
  refine congrArg _ (funext fun a => Fin.ext ?_)
  match a with
  | ⟨0, _⟩ => show win0_10.index t (0 : Fin 2) * 1 + 1 * (y 0).val = (y 0).val; rw [e]; show 0 * 1 + 1 * (y 0).val = _; omega
  | ⟨1, _⟩ => show win0_10.index t (1 : Fin 2) * 128 + 1 * (y 1).val = (y 1).val; rw [e]; show 0 * 128 + 1 * (y 1).val = _; omega

/-- A coordinate block read at an index of the block is the array read at the block's position plus the index. -/
theorem blk0_apply (c : Dev nD) (t : Fin cfg0.N) (y : S1x4096x3.Idx) :
    (iblk m c 0 t y : EReal) = (V m c main_arg0 : S8x16384x3.Idx → EReal) (((cfg0.win 0).blk t).view.emb y) := by
  unfold iblk
  rfl
theorem blk1_apply (c : Dev nD) (t : Fin cfg0.N) (y : S1x4096x48.Idx) :
    (iblk m c 1 t y : EReal) = (V m c main_v0 : S8x16384x48.Idx → EReal) (((cfg0.win 1).blk t).view.emb y) := by
  unfold iblk
  rfl

/-- WHAT POINT t WRITES BACK is block t of the lane-packed array: row r of the block is row (q·4096 + r) of batch b, its
    point's coordinates and neighbours read from the same row of the two coordinate blocks. -/
theorem flushed_eq (c : Dev nD) (t : Fin cfg0.N) :
    (dats m 0 c).flushed 11 t = ((cfg0.win 11).blk t).view.read (Elt Ideal) (packed m c) := by
  show (cfg0.win 11).cut (grid0.coords t) ((dats m 0 c).after 11 t) = _
  rw [after0_11]
  obtain ⟨a0, a1, a2, b0, b1, b2, o2, -, -⟩ := idx_facts t
  funext j
  obtain ⟨r, l, rfl⟩ : ∃ (r : Fin 4096) (l : Fin 128), j = ix3 0 r l :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r l)
    = packed m c (((cfg0.win 11).blk t).view.emb (ix3 0 r l))
  refine (Payload.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r l).trans ?_
  rw [whole2, whole3, whole4, whole5, whole6, whole7, whole8, whole9, whole10]
  unfold packed
  have hl : ((cfg0.win 11).blk t).view.emb (ix3 0 r l) 2 = l := Fin.ext (by
    show win0_11.index t (2 : Fin 3) * 128 + 1 * l.val = l.val
    omega)
  have hx : (fun cc : Fin 3 => (iblk m c 0 t (ix3 0 r cc) : EReal))
      = fun cc => V m c main_arg0 (ix3 (((cfg0.win 11).blk t).view.emb (ix3 0 r l) 0) (((cfg0.win 11).blk t).view.emb (ix3 0 r l) 1) cc) := by
    funext cc
    refine (blk0_apply m c t (ix3 0 r cc)).trans (congrArg _ (funext fun a => Fin.ext ?_))
    match a with
    | ⟨0, _⟩ => show win0_0.index t (0 : Fin 3) * 1 + 1 * 0 = win0_11.index t (0 : Fin 3) * 1 + 1 * 0; omega
    | ⟨1, _⟩ => show win0_0.index t (1 : Fin 3) * 4096 + 1 * r.val = win0_11.index t (1 : Fin 3) * 4096 + 1 * r.val; omega
    | ⟨2, _⟩ => show win0_0.index t (2 : Fin 3) * 3 + 1 * cc.val = cc.val; omega
  have hy : (fun l' : Fin 48 => (iblk m c 1 t (ix3 0 r l') : EReal))
      = fun l' => V m c main_v0 (ix3 (((cfg0.win 11).blk t).view.emb (ix3 0 r l) 0) (((cfg0.win 11).blk t).view.emb (ix3 0 r l) 1) l') := by
    funext l'
    refine (blk1_apply m c t (ix3 0 r l')).trans (congrArg _ (funext fun a => Fin.ext ?_))
    match a with
    | ⟨0, _⟩ => show win0_1.index t (0 : Fin 3) * 1 + 1 * 0 = win0_11.index t (0 : Fin 3) * 1 + 1 * 0; omega
    | ⟨1, _⟩ => show win0_1.index t (1 : Fin 3) * 4096 + 1 * r.val = win0_11.index t (1 : Fin 3) * 4096 + 1 * r.val; omega
    | ⟨2, _⟩ => show win0_1.index t (2 : Fin 3) * 48 + 1 * l'.val = l'.val; omega
  rw [hl]
  exact congrArg₂ (fun f g => rowK f g (V m c main_v15) (V m c main_v17) (V m c main_v20) (V m c main_v23) (V m c main_v25)
    (V m c main_v35) (V m c main_v39) (V m c main_v49) (V m c main_v53) l) hx hy

/-- An index of the lane-packed array lies in point t's block iff each coordinate lies in the block's range on its axis. -/
theorem mem_blk (t : Fin cfg0.N) (i : S8x16384x128.Idx) :
    i ∈ ((cfg0.win 11).blk t).view.set ↔ ∀ a : Fin 3, win0_11.index t a * S1x4096x128.size a ≤ (i a).val
      ∧ (i a).val < win0_11.index t a * S1x4096x128.size a + S1x4096x128.size a := by
  show i ∈ ((View.whole main_v54).slice (win0_11.rect t)).set ↔ _
  rw [View.set_slice_whole, Rect.mem_set_unit]
  exact Iff.rfl

/-- The 8 × 4 blocks of 4096 rows cover the array: row n of batch b lies in the block of point (b, n / 4096). -/
theorem cover (i : S8x16384x128.Idx) :
    ∃ t : Fin cfg0.N, (cfg0.win 11).flush t = true ∧ i ∈ ((cfg0.win 11).blk t).view.set := by
  have hi0 : (i 0).val < 8 := (i 0).isLt
  have hi1 : (i 1).val < 16384 := (i 1).isLt
  have hi2 : (i 2).val < 128 := (i 2).isLt
  obtain ⟨t, ht⟩ := idx_onto ⟨(i 0).val, hi0⟩ ⟨(i 1).val / 4096, by omega⟩
  have q0 : win0_11.index t (0 : Fin 3) = (i 0).val := congrFun ht 0
  have q1 : win0_11.index t (1 : Fin 3) = (i 1).val / 4096 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 4096 ≤ (i 1).val ∧ (i 1).val < win0_11.index t (1 : Fin 3) * 4096 + 4096; omega
  | ⟨2, _⟩ => show win0_11.index t (2 : Fin 3) * 128 ≤ (i 2).val ∧ (i 2).val < win0_11.index t (2 : Fin 3) * 128 + 128; omega

/-- THE ARRAY after the region: the lane-packed computation of every point. -/
theorem final (c : Dev nD) : (dats m 0 c).arrAt 11 cfg0.N = packed m c :=
  (dats m 0 c).arrAt_eq_of_cover 11 (packed m c) (fun t _ => flushed_eq m c t) cover

/-- The host line after the region splits the 128 lanes back into 16 neighbours × 8 channels: the result array is
    the lane-packed array read at the same row-major position. -/
theorem tail_eq (c : Dev nD) :
    (Pipeline.afterTail₀ cfgs (dats m) 0 (V0 m) [hostOps1] c main_v55 : S8x16384x16x8.Idx → EReal)
      = shapeCast S8x16384x16x8 (packed m c) shapeCasts_S8x16384x128_S8x16384x16x8 := by
  have e := (Pipeline.withArrays_arr spec0 launch0.win.arr_inj c (V0 m c) (fun w => (dats m 0 c).arrAt w cfg0.N) 11).trans (final m c)
  unfold Pipeline.afterTail₀
  simp only [List.flatten_cons, List.flatten_nil, List.append_nil, hostOps1]
  after_results
  refine Eq.trans ?_ (congrArg (fun X => shapeCast S8x16384x16x8 X shapeCasts_S8x16384x128_S8x16384x16x8) e)
  rfl

end Cert.KernelIdeal.KernelValue

end
-- ==== Proof.HostSelA.lean ====
import proofs.«408793_j34239479284326_3_alg».proof.Proof.Gen.KernelIdeal.Frame
import proofs.«408793_j34239479284326_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostSelA

open Cert.KernelIdeal Cert.KernelIdeal.Gen Idealize.ShloMosaic Idealize.ShloMosaic.TcCoe Idealize.SL.Sem
open Idealize.ShloMosaic.StableHlo Idealize.ShloMosaic.ValueIdx Cert.PointMlp

variable (m : (ℓ : Loc nD τ sig) → Buf (Elt Ideal) ℓ)

/-- The one-bit comparison of two small naturals as 32-bit words, read as an extended real, is one where they agree and zero elsewhere. -/
theorem word_eq_real (a b : ℕ) (ha : a < 2 ^ 32) (hb : b < 2 ^ 32) :
    (((IntOp.cmpi .eq (IntOp.addi (BitVec.ofNat 32 a) 0#32) (BitVec.ofNat 32 b)).toNat : ℝ) : EReal)
      = if a = b then 1 else 0 := by
  unfold IntOp.cmpi IntOp.addi
  by_cases h : a = b
  · subst h; simp
  · have hne : (BitVec.ofNat 32 a + 0#32 == BitVec.ofNat 32 b) = false := by
      simp only [BitVec.add_zero, beq_eq_false_iff_ne, ne_eq]
      intro e
      apply h
      have := congrArg BitVec.toNat e
      rw [BitVec.toNat_ofNat, BitVec.toNat_ofNat, Nat.mod_eq_of_lt ha, Nat.mod_eq_of_lt hb] at this
      exact this
    rw [if_neg h, hne]; simp

/-- The identity pattern an iota comparison builds, at an index: one where the two named coordinates agree. -/
theorem eye_apply {T : Shape} (d0 d1 : Fin T.rank) (h : S_.BroadcastsInDim T ![]) (j : T.Idx)
    (h0 : (j d0).val < 2 ^ 32) (h1 : (j d1).val < 2 ^ 32) :
    (uitofp (F := Ideal) .f32 (cmpi .eq (addi (iotaInDim T 32 d0) (broadcastInDim T ![] h (constantI S_ 32 0#32)))
        (iotaInDim T 32 d1)) : T.Idx → EReal) j
      = if (j d0).val = (j d1).val then 1 else 0 :=
  word_eq_real (j d0).val (j d1).val h0 h1

/-- The 3×3 array repeated sixteen times along the lanes, at (j, l): the array at (j, l mod 3). -/
theorem tile_apply (x : S3x3.Idx → EReal) (j : Fin 3) (l : Fin 48) :
    shapeCast S3x48 (broadcastInDim S1x3x16x3 ![0, 1, 2, 3] bcast_S1x3x1x3_S1x3x16x3_0_1_2_3
      (shapeCast S1x3x1x3 x shapeCasts_S3x3_S1x3x1x3)) shapeCasts_S1x3x16x3_S3x48 (ix2 j l)
    = x (ix2 j (⟨l.val % 3, Nat.mod_lt _ (by decide)⟩ : Fin 3)) := by
  refine (shapeCast_apply _ shapeCasts_S1x3x16x3_S3x48 (ix2 j l)
    (ix4 (0 : Fin 1) j (⟨l.val / 3, by have := l.isLt; omega⟩ : Fin 16) (⟨l.val % 3, Nat.mod_lt _ (by decide)⟩ : Fin 3)) ?_).trans ?_
  · rw [Shape.rowMajor_val_four, Shape.rowMajor_val_two]
    show (((0 : ℕ) * 3 + j.val) * 16 + l.val / 3) * 3 + l.val % 3 = j.val * 48 + l.val
    omega
  refine (broadcastInDim_apply _ bcast_S1x3x1x3_S1x3x16x3_0_1_2_3 _ _
    (ix4 (0 : Fin 1) j (0 : Fin 1) (⟨l.val % 3, Nat.mod_lt _ (by decide)⟩ : Fin 3)) (fun a => match a with
    | ⟨0, _⟩ => by show (0 : ℕ) = if (1 : Nat) = 1 then 0 else 0; rw [if_pos rfl]
    | ⟨1, _⟩ => by show j.val = if (3 : Nat) = 1 then 0 else j.val; rw [if_neg (by decide)]
    | ⟨2, _⟩ => by show (0 : ℕ) = if (1 : Nat) = 1 then 0 else l.val / 3; rw [if_pos rfl]
    | ⟨3, _⟩ => by show l.val % 3 = if (3 : Nat) = 1 then 0 else l.val % 3; rw [if_neg (by decide)])).trans ?_
  refine shapeCast_apply x shapeCasts_S3x3_S1x3x1x3 _ (ix2 j (⟨l.val % 3, Nat.mod_lt _ (by decide)⟩ : Fin 3)) ?_
  rw [Shape.rowMajor_val_four, Shape.rowMajor_val_two]
  show j.val * 3 + l.val % 3 = (((0 : ℕ) * 3 + j.val) * 1 + 0) * 3 + l.val % 3
  omega

/-- The Kronecker product of a 16×16 array with a 3×1 array, at (l, k): the first at (l / 3, k) times the second at (l mod 3, 0). -/
theorem kron_apply (x : FVec Ideal S16x16 .f32) (y : FVec Ideal S3x1 .f32) (l : Fin 48) (k : Fin 16) :
    shapeCast S48x16 (mulf
        (broadcastInDim S16x3x16x1 ![0, 1, 2, 3] bcast_S16x1x16x1_S16x3x16x1_0_1_2_3
          (broadcastInDim S16x1x16x1 ![0, 2] bcast_S16x16_S16x1x16x1_0_2 x))
        (broadcastInDim S16x3x16x1 ![0, 1, 2, 3] bcast_S1x3x1x1_S16x3x16x1_0_1_2_3
          (broadcastInDim S1x3x1x1 ![1, 3] bcast_S3x1_S1x3x1x1_1_3 y)) : FVec Ideal S16x3x16x1 .f32)
      shapeCasts_S16x3x16x1_S48x16 (ix2 l k)
    = (x (ix2 (⟨l.val / 3, by have := l.isLt; omega⟩ : Fin 16) k)
        * y (ix2 (⟨l.val % 3, Nat.mod_lt _ (by decide)⟩ : Fin 3) (0 : Fin 1)) : EReal) := by
  refine (shapeCast_apply _ shapeCasts_S16x3x16x1_S48x16 (ix2 l k)
    (ix4 (⟨l.val / 3, by have := l.isLt; omega⟩ : Fin 16) (⟨l.val % 3, Nat.mod_lt _ (by decide)⟩ : Fin 3) k (0 : Fin 1)) ?_).trans ?_
  · rw [Shape.rowMajor_val_four, Shape.rowMajor_val_two]
    show ((l.val / 3 * 3 + l.val % 3) * 16 + k.val) * 1 + 0 = l.val * 16 + k.val
    omega
  rw [mulf_apply]
  congr 1
  · refine (broadcastInDim_apply _ bcast_S16x1x16x1_S16x3x16x1_0_1_2_3 _ _
      (ix4 (⟨l.val / 3, by have := l.isLt; omega⟩ : Fin 16) (0 : Fin 1) k (0 : Fin 1)) (fun a => match a with
      | ⟨0, _⟩ => by show l.val / 3 = if (16 : Nat) = 1 then 0 else l.val / 3; rw [if_neg (by decide)]
      | ⟨1, _⟩ => by show (0 : ℕ) = if (1 : Nat) = 1 then 0 else l.val % 3; rw [if_pos rfl]
      | ⟨2, _⟩ => by show k.val = if (16 : Nat) = 1 then 0 else k.val; rw [if_neg (by decide)]
      | ⟨3, _⟩ => by show (0 : ℕ) = if (1 : Nat) = 1 then 0 else 0; rw [if_pos rfl])).trans ?_
    exact broadcastInDim_apply _ bcast_S16x16_S16x1x16x1_0_2 x _
      (ix2 (⟨l.val / 3, by have := l.isLt; omega⟩ : Fin 16) k) (fun a => match a with
      | ⟨0, _⟩ => by show l.val / 3 = if (16 : Nat) = 1 then 0 else l.val / 3; rw [if_neg (by decide)]
      | ⟨1, _⟩ => by show k.val = if (16 : Nat) = 1 then 0 else k.val; rw [if_neg (by decide)])
  · refine (broadcastInDim_apply _ bcast_S1x3x1x1_S16x3x16x1_0_1_2_3 _ _
      (ix4 (0 : Fin 1) (⟨l.val % 3, Nat.mod_lt _ (by decide)⟩ : Fin 3) (0 : Fin 1) (0 : Fin 1)) (fun a => match a with
      | ⟨0, _⟩ => by show (0 : ℕ) = if (1 : Nat) = 1 then 0 else l.val / 3; rw [if_pos rfl]
      | ⟨1, _⟩ => by show l.val % 3 = if (3 : Nat) = 1 then 0 else l.val % 3; rw [if_neg (by decide)]
      | ⟨2, _⟩ => by show (0 : ℕ) = if (1 : Nat) = 1 then 0 else k.val; rw [if_pos rfl]
      | ⟨3, _⟩ => by show (0 : ℕ) = if (1 : Nat) = 1 then 0 else 0; rw [if_pos rfl])).trans ?_
    exact broadcastInDim_apply _ bcast_S3x1_S1x3x1x1_1_3 y _
      (ix2 (⟨l.val % 3, Nat.mod_lt _ (by decide)⟩ : Fin 3) (0 : Fin 1)) (fun a => match a with
      | ⟨0, _⟩ => by show l.val % 3 = if (3 : Nat) = 1 then 0 else l.val % 3; rw [if_neg (by decide)]
      | ⟨1, _⟩ => by show (0 : ℕ) = if (1 : Nat) = 1 then 0 else 0; rw [if_pos rfl])

/-- The lane-copy matrix as one term: the 3×3 identity pattern, given two unit axes, repeated along the third axis, flattened to 3×48. -/
theorem v15_eq (c : Dev nD) : (V m c main_v15 : S3x48.Idx → EReal) =
    shapeCast S3x48 (broadcastInDim S1x3x16x3 ![0, 1, 2, 3] bcast_S1x3x1x3_S1x3x16x3_0_1_2_3
      (shapeCast S1x3x1x3 (uitofp (F := Ideal) .f32 (cmpi .eq (addi (iotaInDim S3x3 32 0)
        (broadcastInDim S3x3 ![] bcast_S_S3x3 (constantI S_ 32 0#32))) (iotaInDim S3x3 32 1)))
        shapeCasts_S3x3_S1x3x1x3)) shapeCasts_S1x3x16x3_S3x48 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The lane-sum matrix as one term: the Kronecker product of the 16×16 identity pattern with a 3×1 array of ones. -/
theorem v17_eq (c : Dev nD) : (V m c main_v17 : S48x16.Idx → EReal) =
    shapeCast S48x16 (mulf
        (broadcastInDim S16x3x16x1 ![0, 1, 2, 3] bcast_S16x1x16x1_S16x3x16x1_0_1_2_3
          (broadcastInDim S16x1x16x1 ![0, 2] bcast_S16x16_S16x1x16x1_0_2
            (uitofp (F := Ideal) .f32 (cmpi .eq (addi (iotaInDim S16x16 32 0)
              (broadcastInDim S16x16 ![] bcast_S_S16x16 (constantI S_ 32 0#32))) (iotaInDim S16x16 32 1)))))
        (broadcastInDim S16x3x16x1 ![0, 1, 2, 3] bcast_S1x3x1x1_S16x3x16x1_0_1_2_3
          (broadcastInDim S1x3x1x1 ![1, 3] bcast_S3x1_S1x3x1x1_1_3
            (broadcastInDim S3x1 ![] bcast_S_S3x1 (constant (F := Ideal) S_ .f32 0x3F800000#32)))) : FVec Ideal S16x3x16x1 .f32)
      shapeCasts_S16x3x16x1_S48x16 := by
  suffices h : ∀ P : (S48x16.Idx → EReal) → Prop, P (shapeCast S48x16 (mulf
        (broadcastInDim S16x3x16x1 ![0, 1, 2, 3] bcast_S16x1x16x1_S16x3x16x1_0_1_2_3
          (broadcastInDim S16x1x16x1 ![0, 2] bcast_S16x16_S16x1x16x1_0_2
            (uitofp (F := Ideal) .f32 (cmpi .eq (addi (iotaInDim S16x16 32 0)
              (broadcastInDim S16x16 ![] bcast_S_S16x16 (constantI S_ 32 0#32))) (iotaInDim S16x16 32 1)))))
        (broadcastInDim S16x3x16x1 ![0, 1, 2, 3] bcast_S1x3x1x1_S16x3x16x1_0_1_2_3
          (broadcastInDim S1x3x1x1 ![1, 3] bcast_S3x1_S1x3x1x1_1_3
            (broadcastInDim S3x1 ![] bcast_S_S3x1 (constant (F := Ideal) S_ .f32 0x3F800000#32)))) : FVec Ideal S16x3x16x1 .f32)
      shapeCasts_S16x3x16x1_S48x16) → P (V m c main_v17) from
    h (fun z => z = shapeCast S48x16 (mulf
        (broadcastInDim S16x3x16x1 ![0, 1, 2, 3] bcast_S16x1x16x1_S16x3x16x1_0_1_2_3
          (broadcastInDim S16x1x16x1 ![0, 2] bcast_S16x16_S16x1x16x1_0_2
            (uitofp (F := Ideal) .f32 (cmpi .eq (addi (iotaInDim S16x16 32 0)
              (broadcastInDim S16x16 ![] bcast_S_S16x16 (constantI S_ 32 0#32))) (iotaInDim S16x16 32 1)))))
        (broadcastInDim S16x3x16x1 ![0, 1, 2, 3] bcast_S1x3x1x1_S16x3x16x1_0_1_2_3
          (broadcastInDim S1x3x1x1 ![1, 3] bcast_S3x1_S1x3x1x1_1_3
            (broadcastInDim S3x1 ![] bcast_S_S3x1 (constant (F := Ideal) S_ .f32 0x3F800000#32)))) : FVec Ideal S16x3x16x1 .f32)
      shapeCasts_S16x3x16x1_S48x16) rfl
  intro P hP
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  exact hP

/-- The matrix that copies a point's three coordinates to each of its sixteen neighbours' lanes: a 3×3 identity
    repeated sixteen times along the lanes. -/
theorem T_apply (c : Dev nD) (j : Fin 3) (l : Fin 48) :
    (V m c main_v15 : S3x48.Idx → EReal) (ix2 j l) = (if j.val = l.val % 3 then 1 else 0 : EReal) := by
  rw [v15_eq, tile_apply]
  exact eye_apply (T := S3x3) 0 1 bcast_S_S3x3 (ix2 j (⟨l.val % 3, Nat.mod_lt _ (by decide)⟩ : Fin 3))
    (by show j.val < 2 ^ 32; have := j.isLt; omega) (by show l.val % 3 < 2 ^ 32; have := l.isLt; omega)

/-- The matrix that sums each neighbour's three lanes into one: entry (l, k) is one exactly when lane l is neighbour k's. -/
theorem S_apply (c : Dev nD) (l : Fin 48) (k : Fin 16) :
    (V m c main_v17 : S48x16.Idx → EReal) (ix2 l k) = (if l.val / 3 = k.val then 1 else 0 : EReal) := by
  rw [v17_eq, kron_apply]
  have hone : (broadcastInDim S3x1 ![] bcast_S_S3x1 (constant (F := Ideal) S_ .f32 0x3F800000#32) : FVec Ideal S3x1 .f32)
      (ix2 (⟨l.val % 3, Nat.mod_lt _ (by decide)⟩ : Fin 3) (0 : Fin 1)) = (1 : EReal) := by
    rw [broadcastInDim_scalar_apply, constant_apply, Ideal.ofBits_one_f32]
  rw [hone, mul_one]
  exact eye_apply (T := S16x16) 0 1 bcast_S_S16x16 (ix2 (⟨l.val / 3, by have := l.isLt; omega⟩ : Fin 16) k)
    (by show l.val / 3 < 2 ^ 32; have := l.isLt; omega) (by show k.val < 2 ^ 32; have := k.isLt; omega)

end Cert.KernelIdeal.HostSelA

end
-- ==== Proof.HostSelB.lean ====
import proofs.«408793_j34239479284326_3_alg».proof.Proof.Gen.KernelIdeal.Frame
import proofs.«408793_j34239479284326_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostSelB

open Cert.KernelIdeal Cert.KernelIdeal.Gen Idealize.ShloMosaic Idealize.ShloMosaic.TcCoe Idealize.SL.Sem
open Idealize.ShloMosaic.StableHlo Idealize.ShloMosaic.ValueIdx Cert.PointMlp

variable (m : (ℓ : Loc nD τ sig) → Buf (Elt Ideal) ℓ)

/-- A coordinate below the extent is itself, and zero when the extent is one. -/
theorem fin_val_ite {n : ℕ} (i : Fin n) : i.val = if n = 1 then 0 else i.val := by
  have := i.isLt
  split <;> omega

/-- The 0/1 word of the equality of two small naturals, converted, is the indicator of their equality. -/
theorem eye_word (a b : ℕ) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  show (((BitVec.ofBool (BitVec.ofNat 32 a + 0#32 == BitVec.ofNat 32 b)).toNat : ℝ) : EReal) = _
  rw [BitVec.add_zero]
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    rw [if_neg h]
    have hf : (BitVec.ofNat 32 a == BitVec.ofNat 32 b) = false := by simpa using hne
    rw [hf]; simp

/-- The 16×16 identity as the program builds it: the converted comparison of the row number with the column number. -/
def eye16 : S16x16.Idx → EReal :=
  uitofp (F := Ideal) .f32 (cmpi .eq (addi (iotaInDim S16x16 32 0) (broadcastInDim S16x16 ![] bcast_S_S16x16 (constantI S_ 32 0#32))) (iotaInDim S16x16 32 1))

/-- Its entry at `(a, b)` is one on the diagonal and zero off it. -/
theorem eye16_apply (a b : Fin 16) : eye16 (ix2 a b) = if a.val = b.val then 1 else 0 := by
  show FloatOps.uitofp (F := Ideal) .f32 (IntOp.cmpi .eq (IntOp.addi (BitVec.ofNat 32 a.val) 0#32) (BitVec.ofNat 32 b.val)) = _
  exact eye_word _ _ (by omega) (by omega)

/-- The Kronecker product as the program builds it — both factors broadcast to the rank-4 shape `[a, b, c, d]`,
    multiplied, and the product reshaped to `[a·b, c·d]` — read at row `i0·b + i1` and column `i2·d + i3`: the
    first factor at `(i0, i2)` times the second at `(i1, i3)`. -/
theorem kron_apply {a b c d p r : ℕ} (hr : r = c * d)
    (h1 : (⟨2, ![a, c]⟩ : Shape).BroadcastsInDim ⟨4, ![a, 1, c, 1]⟩ ![0, 2])
    (h2 : (⟨2, ![b, d]⟩ : Shape).BroadcastsInDim ⟨4, ![1, b, 1, d]⟩ ![1, 3])
    (h3 : (⟨4, ![a, 1, c, 1]⟩ : Shape).BroadcastsInDim ⟨4, ![a, b, c, d]⟩ ![0, 1, 2, 3])
    (h4 : (⟨4, ![1, b, 1, d]⟩ : Shape).BroadcastsInDim ⟨4, ![a, b, c, d]⟩ ![0, 1, 2, 3])
    (h5 : (⟨4, ![a, b, c, d]⟩ : Shape).ShapeCasts ⟨2, ![p, r]⟩)
    (E : (⟨2, ![a, c]⟩ : Shape).Idx → EReal) (W : (⟨2, ![b, d]⟩ : Shape).Idx → EReal)
    (l : Fin p) (q : Fin r) (i0 : Fin a) (i1 : Fin b) (i2 : Fin c) (i3 : Fin d)
    (hl : l.val = i0.val * b + i1.val) (hq : q.val = i2.val * d + i3.val) :
    shapeCast ⟨2, ![p, r]⟩
        (mulf (F := Ideal) (φ := .f32)
          (broadcastInDim ⟨4, ![a, b, c, d]⟩ ![0, 1, 2, 3] h3 (broadcastInDim ⟨4, ![a, 1, c, 1]⟩ ![0, 2] h1 E))
          (broadcastInDim ⟨4, ![a, b, c, d]⟩ ![0, 1, 2, 3] h4 (broadcastInDim ⟨4, ![1, b, 1, d]⟩ ![1, 3] h2 W))) h5 (ix2 l q)
      = E (ix2 i0 i2) * W (ix2 i1 i3) := by
  refine (shapeCast_apply _ h5 (ix2 l q) (ix4 i0 i1 i2 i3) ?_).trans ?_
  · rw [Shape.rowMajor_val_four, Shape.rowMajor_val_two]
    show ((i0.val * b + i1.val) * c + i2.val) * d + i3.val = l.val * r + q.val
    rw [hl, hq, hr, Nat.add_mul _ _ d, Nat.mul_assoc _ c d, Nat.add_assoc]
  · refine (mulf_apply _ _ _).trans ?_
    congr 1
    · refine (broadcastInDim_apply _ h3 _ (ix4 i0 i1 i2 i3) (ix4 i0 0 i2 0) (fun x => match x with
        | ⟨0, _⟩ => fin_val_ite i0
        | ⟨1, _⟩ => by show 0 = if (1 : ℕ) = 1 then 0 else i1.val; rw [if_pos rfl]
        | ⟨2, _⟩ => fin_val_ite i2
        | ⟨3, _⟩ => by show 0 = if (1 : ℕ) = 1 then 0 else i3.val; rw [if_pos rfl])).trans ?_
      exact broadcastInDim_apply _ h1 E (ix4 i0 0 i2 0) (ix2 i0 i2) (fun x => match x with
        | ⟨0, _⟩ => fin_val_ite i0
        | ⟨1, _⟩ => fin_val_ite i2)
    · refine (broadcastInDim_apply _ h4 _ (ix4 i0 i1 i2 i3) (ix4 0 i1 0 i3) (fun x => match x with
        | ⟨0, _⟩ => by show 0 = if (1 : ℕ) = 1 then 0 else i0.val; rw [if_pos rfl]
        | ⟨1, _⟩ => fin_val_ite i1
        | ⟨2, _⟩ => by show 0 = if (1 : ℕ) = 1 then 0 else i2.val; rw [if_pos rfl]
        | ⟨3, _⟩ => fin_val_ite i3)).trans ?_
      exact broadcastInDim_apply _ h2 W (ix4 0 i1 0 i3) (ix2 i1 i3) (fun x => match x with
        | ⟨0, _⟩ => fin_val_ite i1
        | ⟨1, _⟩ => fin_val_ite i3)

/-- The block-diagonal matrix of the first layer's weights on the relative coordinates, as one term of the weights. -/
theorem v20_eq (c : Dev nD) : (V m c main_v20 : S48x64.Idx → EReal) =
    shapeCast S48x64 (mulf (F := Ideal) (φ := .f32)
      (broadcastInDim S16x3x16x4 ![0, 1, 2, 3] bcast_S16x1x16x1_S16x3x16x4_0_1_2_3
        (broadcastInDim S16x1x16x1 ![0, 2] bcast_S16x16_S16x1x16x1_0_2 eye16))
      (broadcastInDim S16x3x16x4 ![0, 1, 2, 3] bcast_S1x3x1x4_S16x3x16x4_0_1_2_3
        (broadcastInDim S1x3x1x4 ![1, 3] bcast_S3x4_S1x3x1x4_1_3
          (transpose S3x4 [1, 0]
            (extractStridedSlice S4x3 ![0, 0] (m ((c : Thread nD τ).loc main_arg2) : S4x4.Idx → EReal) slices_S4x4_S4x3_0_0)
            transposes_S4x3_S3x4_1_0))))
      shapeCasts_S16x3x16x4_S48x64 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The block-diagonal matrix of the first layer's weights on the distance, as one term of the weights. -/
theorem v23_eq (c : Dev nD) : (V m c main_v23 : S16x64.Idx → EReal) =
    shapeCast S16x64 (mulf (F := Ideal) (φ := .f32)
      (broadcastInDim S16x1x16x4 ![0, 1, 2, 3] bcast_S16x1x16x1_S16x1x16x4_0_1_2_3
        (broadcastInDim S16x1x16x1 ![0, 2] bcast_S16x16_S16x1x16x1_0_2 eye16))
      (broadcastInDim S16x1x16x4 ![0, 1, 2, 3] bcast_S1x1x1x4_S16x1x16x4_0_1_2_3
        (broadcastInDim S1x1x1x4 ![1, 3] bcast_S1x4_S1x1x1x4_1_3
          (transpose S1x4 [1, 0]
            (extractStridedSlice S4x1 ![0, 3] (m ((c : Thread nD τ).loc main_arg2) : S4x4.Idx → EReal) slices_S4x4_S4x1_0_3)
            transposes_S4x1_S1x4_1_0))))
      shapeCasts_S16x1x16x4_S16x64 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The block-diagonal matrix of the second layer's weights, as one term of the weights. -/
theorem v25_eq (c : Dev nD) : (V m c main_v25 : S64x128.Idx → EReal) =
    shapeCast S64x128 (mulf (F := Ideal) (φ := .f32)
      (broadcastInDim S16x4x16x8 ![0, 1, 2, 3] bcast_S16x1x16x1_S16x4x16x8_0_1_2_3
        (broadcastInDim S16x1x16x1 ![0, 2] bcast_S16x16_S16x1x16x1_0_2 eye16))
      (broadcastInDim S16x4x16x8 ![0, 1, 2, 3] bcast_S1x4x1x8_S16x4x16x8_0_1_2_3
        (broadcastInDim S1x4x1x8 ![1, 3] bcast_S4x8_S1x4x1x8_1_3
          (transpose S4x8 [1, 0] (m ((c : Thread nD τ).loc main_arg7) : S8x4.Idx → EReal) transposes_S8x4_S4x8_1_0))))
      shapeCasts_S16x4x16x8_S64x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- An indicator times a value is the value where the indicator holds and zero elsewhere. -/
theorem ite_one_zero_mul (p : Prop) [Decidable p] (w : EReal) : (if p then (1 : EReal) else 0) * w = if p then w else 0 := by
  split
  · exact one_mul w
  · exact zero_mul w

/-- The first layer's weights on the relative coordinates, one 3×4 block per neighbour on the diagonal, zero elsewhere. -/
theorem A1_apply (c : Dev nD) (l : Fin 48) (q : Fin 64) :
    (V m c main_v20 : S48x64.Idx → EReal) (ix2 l q)
      = (if l.val / 3 = q.val / 4 then
          (m ((c : Thread nD τ).loc main_arg2) : S4x4.Idx → EReal)
            (ix2 ⟨q.val % 4, Nat.mod_lt _ (by decide)⟩ ⟨l.val % 3, Nat.lt_trans (Nat.mod_lt _ (by decide)) (by decide)⟩)
        else 0 : EReal) := by
  have hl := l.isLt
  have hq := q.isLt
  have hl3 : l.val % 3 < 3 := Nat.mod_lt _ (by decide)
  have hq4 : q.val % 4 < 4 := Nat.mod_lt _ (by decide)
  refine (congrFun (v20_eq m c) (ix2 l q)).trans ?_
  refine (kron_apply (a := 16) (b := 3) (c := 16) (d := 4) rfl _ _ _ _ _ eye16 _ l q
    ⟨l.val / 3, by omega⟩ ⟨l.val % 3, hl3⟩ ⟨q.val / 4, by omega⟩ ⟨q.val % 4, hq4⟩
    (by show l.val = l.val / 3 * 3 + l.val % 3; omega) (by show q.val = q.val / 4 * 4 + q.val % 4; omega)).trans ?_
  have hW : transpose S3x4 [1, 0]
        (extractStridedSlice S4x3 ![0, 0] (m ((c : Thread nD τ).loc main_arg2) : S4x4.Idx → EReal) slices_S4x4_S4x3_0_0)
        transposes_S4x3_S3x4_1_0 (ix2 (⟨l.val % 3, hl3⟩ : Fin 3) (⟨q.val % 4, hq4⟩ : Fin 4))
      = (m ((c : Thread nD τ).loc main_arg2) : S4x4.Idx → EReal)
          (ix2 (⟨q.val % 4, hq4⟩ : Fin 4) (⟨l.val % 3, Nat.lt_trans hl3 (by decide)⟩ : Fin 4)) :=
    (transpose_ix2_apply _ transposes_S4x3_S3x4_1_0 (⟨l.val % 3, hl3⟩ : Fin 3) (⟨q.val % 4, hq4⟩ : Fin 4)).trans
      (slice2_axis1_apply 0 (m ((c : Thread nD τ).loc main_arg2) : S4x4.Idx → EReal) slices_S4x4_S4x3_0_0
        (⟨q.val % 4, hq4⟩ : Fin 4) (⟨l.val % 3, hl3⟩ : Fin 3) (⟨l.val % 3, Nat.lt_trans hl3 (by decide)⟩ : Fin 4)
        (Nat.zero_add _).symm)
  rw [eye16_apply, hW]
  exact ite_one_zero_mul _ _

/-- The first layer's weights on the distance, one 1×4 block per neighbour on the diagonal, zero elsewhere. -/
theorem D1_apply (c : Dev nD) (k : Fin 16) (q : Fin 64) :
    (V m c main_v23 : S16x64.Idx → EReal) (ix2 k q)
      = (if k.val = q.val / 4 then
          (m ((c : Thread nD τ).loc main_arg2) : S4x4.Idx → EReal) (ix2 ⟨q.val % 4, Nat.mod_lt _ (by decide)⟩ 3)
        else 0 : EReal) := by
  have hk := k.isLt
  have hq := q.isLt
  have hq4 : q.val % 4 < 4 := Nat.mod_lt _ (by decide)
  refine (congrFun (v23_eq m c) (ix2 k q)).trans ?_
  refine (kron_apply (a := 16) (b := 1) (c := 16) (d := 4) rfl _ _ _ _ _ eye16 _ k q
    k (0 : Fin 1) ⟨q.val / 4, by omega⟩ ⟨q.val % 4, hq4⟩
    (by show k.val = k.val * 1 + 0; omega) (by show q.val = q.val / 4 * 4 + q.val % 4; omega)).trans ?_
  have hW : transpose S1x4 [1, 0]
        (extractStridedSlice S4x1 ![0, 3] (m ((c : Thread nD τ).loc main_arg2) : S4x4.Idx → EReal) slices_S4x4_S4x1_0_3)
        transposes_S4x1_S1x4_1_0 (ix2 (0 : Fin 1) (⟨q.val % 4, hq4⟩ : Fin 4))
      = (m ((c : Thread nD τ).loc main_arg2) : S4x4.Idx → EReal) (ix2 (⟨q.val % 4, hq4⟩ : Fin 4) (3 : Fin 4)) :=
    (transpose_ix2_apply _ transposes_S4x1_S1x4_1_0 (0 : Fin 1) (⟨q.val % 4, hq4⟩ : Fin 4)).trans
      (slice2_axis1_apply 3 (m ((c : Thread nD τ).loc main_arg2) : S4x4.Idx → EReal) slices_S4x4_S4x1_0_3
        (⟨q.val % 4, hq4⟩ : Fin 4) (0 : Fin 1) (3 : Fin 4) rfl)
  rw [eye16_apply, hW]
  exact ite_one_zero_mul _ _

/-- The second layer's weights, one 4×8 block per neighbour on the diagonal, zero elsewhere. -/
theorem A2_apply (c : Dev nD) (q : Fin 64) (j : Fin 128) :
    (V m c main_v25 : S64x128.Idx → EReal) (ix2 q j)
      = (if q.val / 4 = j.val / 8 then
          (m ((c : Thread nD τ).loc main_arg7) : S8x4.Idx → EReal)
            (ix2 ⟨j.val % 8, Nat.mod_lt _ (by decide)⟩ ⟨q.val % 4, Nat.mod_lt _ (by decide)⟩)
        else 0 : EReal) := by
  have hq := q.isLt
  have hj := j.isLt
  refine (congrFun (v25_eq m c) (ix2 q j)).trans ?_
  refine (kron_apply (a := 16) (b := 4) (c := 16) (d := 8) rfl _ _ _ _ _ eye16 _ q j
    ⟨q.val / 4, by omega⟩ ⟨q.val % 4, Nat.mod_lt _ (by decide)⟩ ⟨j.val / 8, by omega⟩ ⟨j.val % 8, Nat.mod_lt _ (by decide)⟩
    (by show q.val = q.val / 4 * 4 + q.val % 4; omega) (by show j.val = j.val / 8 * 8 + j.val % 8; omega)).trans ?_
  rw [eye16_apply, transpose_ix2_apply]
  exact ite_one_zero_mul _ _

end Cert.KernelIdeal.HostSelB

end
-- ==== Proof.HostVec.lean ====
import proofs.«408793_j34239479284326_3_alg».proof.Proof.Gen.KernelIdeal.Frame
import proofs.«408793_j34239479284326_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostVec

open Cert.KernelIdeal Cert.KernelIdeal.Gen Idealize.ShloMosaic Idealize.ShloMosaic.TcCoe Idealize.SL.Sem
open Idealize.ShloMosaic.StableHlo Idealize.ShloMosaic.ValueIdx Cert.PointMlp

variable (m : (ℓ : Loc nD τ sig) → Buf (Elt Ideal) ℓ)

/-- A vector of length n, viewed as one row, repeated over sixteen rows, flattened and viewed as one row again: lane q
    holds the vector's entry q % n. -/
theorem tile16_apply {α : Type} {n N : ℕ} (x : (⟨1, ![n]⟩ : Shape).Idx → α)
    (h1 : (⟨1, ![n]⟩ : Shape).ShapeCasts ⟨2, ![1, n]⟩)
    (h2 : (⟨2, ![1, n]⟩ : Shape).BroadcastsInDim ⟨2, ![16, n]⟩ ![0, 1])
    (h3 : (⟨2, ![16, n]⟩ : Shape).ShapeCasts ⟨1, ![N]⟩)
    (h4 : (⟨1, ![N]⟩ : Shape).ShapeCasts ⟨2, ![1, N]⟩)
    (hn : 0 < n) (hN : N = 16 * n) (u : Fin 1) (q : Fin N) :
    shapeCast ⟨2, ![1, N]⟩
        (shapeCast ⟨1, ![N]⟩ (broadcastInDim ⟨2, ![16, n]⟩ ![0, 1] h2 (shapeCast ⟨2, ![1, n]⟩ x h1)) h3) h4 (ix2 u q)
      = x (ix1 ⟨q.val % n, Nat.mod_lt _ hn⟩) := by
  have hq : q.val / n < 16 := by
    have := q.isLt
    rw [Nat.div_lt_iff_lt_mul hn]; omega
  refine (shapeCast_a_1a_apply _ h4 u q).trans ?_
  refine (shapeCast_apply _ h3 (ix1 q) (ix2 ⟨q.val / n, hq⟩ ⟨q.val % n, Nat.mod_lt _ hn⟩) ?_).trans ?_
  · rw [Shape.rowMajor_val_two, Shape.rowMajor_val_one]
    show q.val / n * n + q.val % n = q.val
    exact Nat.div_add_mod' _ _
  refine (broadcastInDim_apply ![0, 1] h2 _ (ix2 ⟨q.val / n, hq⟩ ⟨q.val % n, Nat.mod_lt _ hn⟩)
    (ix2 (0 : Fin 1) ⟨q.val % n, Nat.mod_lt _ hn⟩) ?_).trans ?_
  · intro a
    match a with
    | ⟨0, _⟩ =>
      show (0 : ℕ) = if (1 : ℕ) = 1 then 0 else q.val / n
      rw [if_pos rfl]
    | ⟨1, _⟩ =>
      show q.val % n = if n = 1 then 0 else q.val % n
      split
      · rename_i h; rw [h, Nat.mod_one]
      · rfl
  exact shapeCast_a_1a_apply x h1 0 _

/-- The lane-flattened neighbours' coordinates are the neighbours' coordinate array reshaped from [8, 16384, 16, 3] to [8, 16384, 48]. -/
theorem v0_eq (c : Dev nD) :
    (V m c main_v0 : S8x16384x48.Idx → EReal)
      = shapeCast S8x16384x48 (m ((c : Thread nD τ).loc main_arg1) : S8x16384x16x3.Idx → EReal)
          shapeCasts_S8x16384x16x3_S8x16384x48 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The neighbours' coordinates with the neighbour and coordinate axes flattened into 48 lanes: lane l is neighbour l / 3's
    coordinate l % 3. -/
theorem ncoords_apply (c : Dev nD) (b : Fin 8) (n : Fin 16384) (l : Fin 48) :
    (V m c main_v0 : S8x16384x48.Idx → EReal) (ix3 b n l)
      = (m ((c : Thread nD τ).loc main_arg1) : S8x16384x16x3.Idx → EReal)
          (ix4 b n ⟨l.val / 3, by have := l.isLt; omega⟩ ⟨l.val % 3, Nat.mod_lt _ (by decide)⟩) := by
  rw [v0_eq]
  refine shapeCast_apply (s := S8x16384x16x3) (t := S8x16384x48) _ _ _ _ ?_
  show ((⟨4, ![8, 16384, 16, 3]⟩ : Shape).rowMajor _).val = ((⟨3, ![8, 16384, 48]⟩ : Shape).rowMajor _).val
  rw [Shape.rowMajor_val_four, Shape.rowMajor_val_three]
  show ((b.val * 16384 + n.val) * 16 + l.val / 3) * 3 + l.val % 3 = (b.val * 16384 + n.val) * 48 + l.val
  omega

/-- The first scale's row: the vector g · rsqrt (v + ε) viewed as one row, repeated over sixteen rows, flattened to 64 lanes. -/
theorem v35_eq (c : Dev nD) :
    (V m c main_v35 : S1x64.Idx → EReal)
      = shapeCast S1x64
          (shapeCast S64
            (broadcastInDim S16x4 ![0, 1] bcast_S1x4_S16x4_0_1
              (shapeCast S1x4
                (mulf (F := Ideal) (m ((c : Thread nD τ).loc main_arg3) : FVec Ideal S4 .f32)
                  (Host.rsqrt (F := Ideal)
                    (addf (F := Ideal) (m ((c : Thread nD τ).loc main_arg6) : FVec Ideal S4 .f32)
                      (broadcastInDim S4 ![] bcast_S_S4 (constant (F := Ideal) S_ .f32 0x3727C5AC#32)))))
                shapeCasts_S4_S1x4))
            shapeCasts_S16x4_S64)
          shapeCasts_S64_S1x64 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The first bias's row: the vector b - m · (g · rsqrt (v + ε)) viewed as one row, repeated over sixteen rows, flattened to 64 lanes. -/
theorem v39_eq (c : Dev nD) :
    (V m c main_v39 : S1x64.Idx → EReal)
      = shapeCast S1x64
          (shapeCast S64
            (broadcastInDim S16x4 ![0, 1] bcast_S1x4_S16x4_0_1
              (shapeCast S1x4
                (subf (F := Ideal) (m ((c : Thread nD τ).loc main_arg4) : FVec Ideal S4 .f32)
                  (mulf (F := Ideal) (m ((c : Thread nD τ).loc main_arg5) : FVec Ideal S4 .f32)
                    (mulf (F := Ideal) (m ((c : Thread nD τ).loc main_arg3) : FVec Ideal S4 .f32)
                  (Host.rsqrt (F := Ideal)
                    (addf (F := Ideal) (m ((c : Thread nD τ).loc main_arg6) : FVec Ideal S4 .f32)
                      (broadcastInDim S4 ![] bcast_S_S4 (constant (F := Ideal) S_ .f32 0x3727C5AC#32)))))))
                shapeCasts_S4_S1x4))
            shapeCasts_S16x4_S64)
          shapeCasts_S64_S1x64 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The second scale's row: the vector g · rsqrt (v + ε) viewed as one row, repeated over sixteen rows, flattened to 128 lanes. -/
theorem v49_eq (c : Dev nD) :
    (V m c main_v49 : S1x128.Idx → EReal)
      = shapeCast S1x128
          (shapeCast S128
            (broadcastInDim S16x8 ![0, 1] bcast_S1x8_S16x8_0_1
              (shapeCast S1x8
                (mulf (F := Ideal) (m ((c : Thread nD τ).loc main_arg8) : FVec Ideal S8 .f32)
                  (Host.rsqrt (F := Ideal)
                    (addf (F := Ideal) (m ((c : Thread nD τ).loc main_arg11) : FVec Ideal S8 .f32)
                      (broadcastInDim S8 ![] bcast_S_S8 (constant (F := Ideal) S_ .f32 0x3727C5AC#32)))))
                shapeCasts_S8_S1x8))
            shapeCasts_S16x8_S128)
          shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The second bias's row: the vector b - m · (g · rsqrt (v + ε)) viewed as one row, repeated over sixteen rows, flattened to 128 lanes. -/
theorem v53_eq (c : Dev nD) :
    (V m c main_v53 : S1x128.Idx → EReal)
      = shapeCast S1x128
          (shapeCast S128
            (broadcastInDim S16x8 ![0, 1] bcast_S1x8_S16x8_0_1
              (shapeCast S1x8
                (subf (F := Ideal) (m ((c : Thread nD τ).loc main_arg9) : FVec Ideal S8 .f32)
                  (mulf (F := Ideal) (m ((c : Thread nD τ).loc main_arg10) : FVec Ideal S8 .f32)
                    (mulf (F := Ideal) (m ((c : Thread nD τ).loc main_arg8) : FVec Ideal S8 .f32)
                  (Host.rsqrt (F := Ideal)
                    (addf (F := Ideal) (m ((c : Thread nD τ).loc main_arg11) : FVec Ideal S8 .f32)
                      (broadcastInDim S8 ![] bcast_S_S8 (constant (F := Ideal) S_ .f32 0x3727C5AC#32)))))))
                shapeCasts_S8_S1x8))
            shapeCasts_S16x8_S128)
          shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The first batch norm's scale, repeated for each neighbour along the 64 lanes. -/
theorem s1_apply (c : Dev nD) (q : Fin 64) :
    (V m c main_v35 : S1x64.Idx → EReal) (ix2 0 q)
      = bnScale (m ((c : Thread nD τ).loc main_arg3)) (m ((c : Thread nD τ).loc main_arg6)) ⟨q.val % 4, Nat.mod_lt _ (by decide)⟩ := by
  rw [v35_eq]
  refine (tile16_apply (n := 4) (N := 64) _ shapeCasts_S4_S1x4 bcast_S1x4_S16x4_0_1 shapeCasts_S16x4_S64 shapeCasts_S64_S1x64
    (by decide) (by decide) 0 q).trans ?_
  rfl

/-- The first batch norm's bias, repeated for each neighbour along the 64 lanes. -/
theorem b1_apply (c : Dev nD) (q : Fin 64) :
    (V m c main_v39 : S1x64.Idx → EReal) (ix2 0 q)
      = bnBias (m ((c : Thread nD τ).loc main_arg4)) (m ((c : Thread nD τ).loc main_arg5))
          (bnScale (m ((c : Thread nD τ).loc main_arg3)) (m ((c : Thread nD τ).loc main_arg6))) ⟨q.val % 4, Nat.mod_lt _ (by decide)⟩ := by
  rw [v39_eq]
  refine (tile16_apply (n := 4) (N := 64) _ shapeCasts_S4_S1x4 bcast_S1x4_S16x4_0_1 shapeCasts_S16x4_S64 shapeCasts_S64_S1x64
    (by decide) (by decide) 0 q).trans ?_
  rfl

/-- The second batch norm's scale, repeated for each neighbour along the 128 lanes. -/
theorem s2_apply (c : Dev nD) (j : Fin 128) :
    (V m c main_v49 : S1x128.Idx → EReal) (ix2 0 j)
      = bnScale (m ((c : Thread nD τ).loc main_arg8)) (m ((c : Thread nD τ).loc main_arg11)) ⟨j.val % 8, Nat.mod_lt _ (by decide)⟩ := by
  rw [v49_eq]
  refine (tile16_apply (n := 8) (N := 128) _ shapeCasts_S8_S1x8 bcast_S1x8_S16x8_0_1 shapeCasts_S16x8_S128 shapeCasts_S128_S1x128
    (by decide) (by decide) 0 j).trans ?_
  rfl

/-- The second batch norm's bias, repeated for each neighbour along the 128 lanes. -/
theorem b2_apply (c : Dev nD) (j : Fin 128) :
    (V m c main_v53 : S1x128.Idx → EReal) (ix2 0 j)
      = bnBias (m ((c : Thread nD τ).loc main_arg9)) (m ((c : Thread nD τ).loc main_arg10))
          (bnScale (m ((c : Thread nD τ).loc main_arg8)) (m ((c : Thread nD τ).loc main_arg11))) ⟨j.val % 8, Nat.mod_lt _ (by decide)⟩ := by
  rw [v53_eq]
  refine (tile16_apply (n := 8) (N := 128) _ shapeCasts_S8_S1x8 bcast_S1x8_S16x8_0_1 shapeCasts_S16x8_S128 shapeCasts_S128_S1x128
    (by decide) (by decide) 0 j).trans ?_
  rfl

end Cert.KernelIdeal.HostVec

end
-- ==== Proof.SpecLaw.lean ====
/-
  The law that joins the two layouts: under `Packed`, lane k·8 + o of the lane-packed computation is channel o of the
  per-neighbour computation on neighbour k.  Every sum over a packed lane axis has the form
  ∑ l, f l · (if l / q = k then w (l % q) else 0); the terms off neighbour k's block vanish (0 · x = 0 on the extended
  reals, with no finiteness needed) and the block's terms are the per-neighbour sum.
-/
import proofs.«408793_j34239479284326_3_alg».proof.Proof.Spec
import Mathlib.Algebra.BigOperators.Fin
import Mathlib.Algebra.BigOperators.Group.Finset.Basic

noncomputable section

namespace Cert.PointMlp

open Idealize.ShloMosaic Idealize.ShloMosaic.ValueIdx

/-- A sum over a lane axis of K blocks of q lanes, whose terms vanish off block k, is the sum over block k's q lanes. -/
theorem sum_block {M : ℕ} (K q : ℕ) (hM : M = K * q) (k : Fin K) (F : Fin M → EReal) (G : Fin q → EReal)
    (hin : ∀ (c : Fin q) (h : k.val * q + c.val < M), F ⟨k.val * q + c.val, h⟩ = G c)
    (hout : ∀ l : Fin M, l.val / q ≠ k.val → F l = 0) :
    ∑ l : Fin M, F l = ∑ c : Fin q, G c := by
  have hlt : ∀ c : Fin q, k.val * q + c.val < M := by
    intro c
    have h1 := k.isLt
    have h2 := c.isLt
    subst hM
    calc k.val * q + c.val < k.val * q + q := by omega
      _ = (k.val + 1) * q := by ring
      _ ≤ K * q := Nat.mul_le_mul_right _ (by omega)
  symm
  refine Fintype.sum_of_injective (fun c : Fin q => (⟨k.val * q + c.val, hlt c⟩ : Fin M)) ?_ G F ?_ ?_
  · intro a b hab
    simp only [Fin.mk.injEq] at hab
    exact Fin.ext (by omega)
  · intro l hl
    apply hout
    intro hk
    apply hl
    have hq : 0 < q := by
      rcases Nat.eq_zero_or_pos q with h0 | h0
      · exfalso
        have := l.isLt
        subst hM
        subst h0
        simp at this
      · exact h0
    refine ⟨⟨l.val % q, Nat.mod_lt _ hq⟩, ?_⟩
    apply Fin.ext
    show k.val * q + l.val % q = l.val
    rw [← hk]
    exact Nat.div_add_mod' l.val q
  · intro c
    exact (hin c (hlt c)).symm

/-- The reference's relative coordinates of one neighbour. -/
def relR (xr yk : Fin 3 → EReal) : Fin 3 → EReal := fun c => yk c - xr c
/-- The reference's distance to one neighbour. -/
def distR (xr yk : Fin 3 → EReal) : EReal := Ideal.sqrt (∑ c : Fin 3, relR xr yk c * relR xr yk c)
/-- The reference's four-channel encoding of one neighbour. -/
def encR (xr yk : Fin 3 → EReal) : Fin 4 → EReal :=
  fun c => if h : c.val < 3 then relR xr yk ⟨c.val, h⟩ else distR xr yk
/-- The reference's hidden layer for one neighbour. -/
def hidR (xr yk : Fin 3 → EReal) (W1 : Mat 4 4) (sc1 bi1 : Fin 4 → EReal) : Fin 4 → EReal :=
  fun o => max ((∑ c : Fin 4, encR xr yk c * W1 (ix2 o c)) * sc1 o + bi1 o) 0

theorem rowR_eq (xr yk : Fin 3 → EReal) (W1 : Mat 4 4) (sc1 bi1 : Fin 4 → EReal) (W2 : Mat 8 4)
    (sc2 bi2 : Fin 8 → EReal) (o : Fin 8) :
    rowR xr yk W1 sc1 bi1 W2 sc2 bi2 o
      = max ((∑ c : Fin 4, hidR xr yk W1 sc1 bi1 c * W2 (ix2 o c)) * sc2 o + bi2 o) 0 := rfl

/-- The packed relative coordinates, all sixteen neighbours side by side. -/
def relK (xr : Fin 3 → EReal) (yr : Fin 48 → EReal) (T : Mat 3 48) : Fin 48 → EReal :=
  fun l => yr l - ∑ j : Fin 3, xr j * T (ix2 j l)
/-- The packed distances, one per neighbour. -/
def distK (xr : Fin 3 → EReal) (yr : Fin 48 → EReal) (T : Mat 3 48) (S : Mat 48 16) : Fin 16 → EReal :=
  fun k => Ideal.sqrt (∑ l : Fin 48, (relK xr yr T l * relK xr yr T l) * S (ix2 l k))
/-- The packed hidden layer, four lanes per neighbour. -/
def hidK (xr : Fin 3 → EReal) (yr : Fin 48 → EReal) (T : Mat 3 48) (S : Mat 48 16) (A1 : Mat 48 64) (D1 : Mat 16 64)
    (s1 b1 : Mat 1 64) : Fin 64 → EReal :=
  fun q => max (((∑ l : Fin 48, relK xr yr T l * A1 (ix2 l q)) + ∑ k : Fin 16, distK xr yr T S k * D1 (ix2 k q))
    * s1 (ix2 0 q) + b1 (ix2 0 q)) 0

theorem rowK_eq (xr : Fin 3 → EReal) (yr : Fin 48 → EReal) (T : Mat 3 48) (S : Mat 48 16) (A1 : Mat 48 64)
    (D1 : Mat 16 64) (A2 : Mat 64 128) (s1 b1 : Mat 1 64) (s2 b2 : Mat 1 128) (j : Fin 128) :
    rowK xr yr T S A1 D1 A2 s1 b1 s2 b2 j
      = max ((∑ q : Fin 64, hidK xr yr T S A1 D1 s1 b1 q * A2 (ix2 q j)) * s2 (ix2 0 j) + b2 (ix2 0 j)) 0 := rfl

section law

variable {W1 : Mat 4 4} {sc1 bi1 : Fin 4 → EReal} {W2 : Mat 8 4} {sc2 bi2 : Fin 8 → EReal}
  {T : Mat 3 48} {S : Mat 48 16} {A1 : Mat 48 64} {D1 : Mat 16 64} {A2 : Mat 64 128} {s1 b1 : Mat 1 64} {s2 b2 : Mat 1 128}

/-- The product with the 0/1 copy matrix reads the point's coordinate l % 3 at lane l. -/
theorem sum_T (P : Packed W1 sc1 bi1 W2 sc2 bi2 T S A1 D1 A2 s1 b1 s2 b2) (xr : Fin 3 → EReal) (l : Fin 48) :
    ∑ j : Fin 3, xr j * T (ix2 j l) = xr ⟨l.val % 3, Nat.mod_lt _ (by decide)⟩ := by
  rw [Finset.sum_eq_single (⟨l.val % 3, Nat.mod_lt _ (by decide)⟩ : Fin 3)]
  · rw [P.hT, if_pos rfl, mul_one]
  · intro j _ hj
    rw [P.hT, if_neg, mul_zero]
    intro h
    exact hj (Fin.ext h)
  · intro h
    exact absurd (Finset.mem_univ _) h

/-- Lane k·3 + c of the packed relative coordinates is coordinate c of neighbour k's. -/
theorem relK_block (P : Packed W1 sc1 bi1 W2 sc2 bi2 T S A1 D1 A2 s1 b1 s2 b2) (xr : Fin 3 → EReal)
    (yr : Fin 48 → EReal) (k : Fin 16) (c : Fin 3) (h : k.val * 3 + c.val < 48) :
    relK xr yr T ⟨k.val * 3 + c.val, h⟩
      = relR xr (fun c => yr ⟨k.val * 3 + c.val, by have := k.isLt; have := c.isLt; omega⟩) c := by
  unfold relK relR
  rw [sum_T P]
  have hc : (⟨(⟨k.val * 3 + c.val, h⟩ : Fin 48).val % 3, Nat.mod_lt _ (by decide)⟩ : Fin 3) = c :=
    Fin.ext (by have := c.isLt; show (k.val * 3 + c.val) % 3 = c.val; omega)
  rw [hc]

/-- The packed distance of neighbour k is the reference's distance to neighbour k. -/
theorem distK_eq (P : Packed W1 sc1 bi1 W2 sc2 bi2 T S A1 D1 A2 s1 b1 s2 b2) (xr : Fin 3 → EReal)
    (yr : Fin 48 → EReal) (k : Fin 16) :
    distK xr yr T S k
      = distR xr (fun c => yr ⟨k.val * 3 + c.val, by have := k.isLt; have := c.isLt; omega⟩) := by
  unfold distK distR
  congr 1
  refine sum_block 16 3 rfl k _ _ ?_ ?_
  · intro c h
    have hk : (⟨k.val * 3 + c.val, h⟩ : Fin 48).val / 3 = k.val := by
      have := c.isLt; show (k.val * 3 + c.val) / 3 = k.val; omega
    rw [relK_block P xr yr k c h, P.hS, if_pos hk, mul_one]
  · intro l hl
    rw [P.hS, if_neg hl, mul_zero]

/-- A matrix entry depends on its two coordinates' values only. -/
theorem mat_congr {a b : ℕ} (W : Mat a b) {i i' : Fin a} {j j' : Fin b} (hi : i.val = i'.val) (hj : j.val = j'.val) :
    W (ix2 i j) = W (ix2 i' j') := by
  rw [Fin.ext hi, Fin.ext hj]

/-- The reference's first contraction splits into the three relative coordinates and the distance. -/
theorem sum_enc (xr yk : Fin 3 → EReal) (W1 : Mat 4 4) (o : Fin 4) :
    ∑ c : Fin 4, encR xr yk c * W1 (ix2 o c)
      = (∑ c : Fin 3, relR xr yk c * W1 (ix2 o (Fin.castSucc c))) + distR xr yk * W1 (ix2 o 3) := by
  rw [Fin.sum_univ_castSucc]
  congr 1

/-- Lane k·4 + c of the packed hidden layer is hidden channel c of neighbour k. -/
theorem hidK_block (P : Packed W1 sc1 bi1 W2 sc2 bi2 T S A1 D1 A2 s1 b1 s2 b2) (xr : Fin 3 → EReal)
    (yr : Fin 48 → EReal) (k : Fin 16) (c' : Fin 4) (h : k.val * 4 + c'.val < 64) :
    hidK xr yr T S A1 D1 s1 b1 ⟨k.val * 4 + c'.val, h⟩
      = hidR xr (fun c => yr ⟨k.val * 3 + c.val, by have := k.isLt; have := c.isLt; omega⟩) W1 sc1 bi1 c' := by
  have hc' := c'.isLt
  have hdiv : (k.val * 4 + c'.val) / 4 = k.val := by omega
  have hmod : (k.val * 4 + c'.val) % 4 = c'.val := by omega
  have hA : ∑ l : Fin 48, relK xr yr T l * A1 (ix2 l (⟨k.val * 4 + c'.val, h⟩ : Fin 64))
      = ∑ c : Fin 3, relR xr (fun c => yr ⟨k.val * 3 + c.val, by have := k.isLt; have := c.isLt; omega⟩) c
          * W1 (ix2 c' (Fin.castSucc c)) := by
    refine sum_block 16 3 rfl k _ _ ?_ ?_
    · intro c h3
      have hc := c.isLt
      have hk : (⟨k.val * 3 + c.val, h3⟩ : Fin 48).val / 3 = (⟨k.val * 4 + c'.val, h⟩ : Fin 64).val / 4 := by
        show (k.val * 3 + c.val) / 3 = (k.val * 4 + c'.val) / 4
        omega
      rw [relK_block P xr yr k c h3, P.hA1, if_pos hk]
      congr 1
      refine mat_congr W1 hmod ?_
      show (k.val * 3 + c.val) % 3 = c.val
      omega
    · intro l hl
      rw [P.hA1, if_neg, mul_zero]
      intro hh
      apply hl
      rw [hh]
      exact hdiv
  have hD : ∑ k' : Fin 16, distK xr yr T S k' * D1 (ix2 k' (⟨k.val * 4 + c'.val, h⟩ : Fin 64))
      = distR xr (fun c => yr ⟨k.val * 3 + c.val, by have := k.isLt; have := c.isLt; omega⟩) * W1 (ix2 c' 3) := by
    rw [Finset.sum_eq_single k]
    · rw [distK_eq P, P.hD1, if_pos hdiv.symm]
      congr 1
      exact mat_congr W1 hmod rfl
    · intro k' _ hk'
      rw [P.hD1, if_neg, mul_zero]
      intro hh
      apply hk'
      apply Fin.ext
      rw [hh]
      exact hdiv
    · intro hh
      exact absurd (Finset.mem_univ _) hh
  unfold hidK hidR
  rw [hA, hD, sum_enc, P.hs1, P.hb1]
  have hq : (⟨(⟨k.val * 4 + c'.val, h⟩ : Fin 64).val % 4, Nat.mod_lt _ (by decide)⟩ : Fin 4) = c' := Fin.ext hmod
  rw [hq]

end law

theorem rowK_eq_rowR {W1 : Mat 4 4} {sc1 bi1 : Fin 4 → EReal} {W2 : Mat 8 4} {sc2 bi2 : Fin 8 → EReal}
    {T : Mat 3 48} {S : Mat 48 16} {A1 : Mat 48 64} {D1 : Mat 16 64} {A2 : Mat 64 128} {s1 b1 : Mat 1 64} {s2 b2 : Mat 1 128}
    (P : Packed W1 sc1 bi1 W2 sc2 bi2 T S A1 D1 A2 s1 b1 s2 b2) (xr : Fin 3 → EReal) (yr : Fin 48 → EReal)
    (k : Fin 16) (o : Fin 8) :
    rowK xr yr T S A1 D1 A2 s1 b1 s2 b2 ⟨k.val * 8 + o.val, by have := k.isLt; have := o.isLt; omega⟩
      = rowR xr (fun c => yr ⟨k.val * 3 + c.val, by have := k.isLt; have := c.isLt; omega⟩) W1 sc1 bi1 W2 sc2 bi2 o := by
  have ho := o.isLt
  have hk := k.isLt
  have hdiv : (k.val * 8 + o.val) / 8 = k.val := by omega
  have hmod : (k.val * 8 + o.val) % 8 = o.val := by omega
  have hlt : k.val * 8 + o.val < 128 := by omega
  have hsum : ∑ q : Fin 64, hidK xr yr T S A1 D1 s1 b1 q * A2 (ix2 q (⟨k.val * 8 + o.val, hlt⟩ : Fin 128))
      = ∑ c : Fin 4, hidR xr (fun c => yr ⟨k.val * 3 + c.val, by have := c.isLt; omega⟩) W1 sc1 bi1 c
          * W2 (ix2 o c) := by
    refine sum_block 16 4 rfl k _ _ ?_ ?_
    · intro c h4
      have hc := c.isLt
      have hk4 : (⟨k.val * 4 + c.val, h4⟩ : Fin 64).val / 4 = (⟨k.val * 8 + o.val, hlt⟩ : Fin 128).val / 8 := by
        show (k.val * 4 + c.val) / 4 = (k.val * 8 + o.val) / 8
        omega
      rw [hidK_block P xr yr k c h4, P.hA2, if_pos hk4]
      congr 1
      refine mat_congr W2 hmod ?_
      show (k.val * 4 + c.val) % 4 = c.val
      omega
    · intro q hq
      rw [P.hA2, if_neg, mul_zero]
      intro hh
      apply hq
      rw [hh]
      exact hdiv
  rw [rowK_eq, rowR_eq, hsum, P.hs2, P.hb2]
  have hj : (⟨(⟨k.val * 8 + o.val, hlt⟩ : Fin 128).val % 8, Nat.mod_lt _ (by decide)⟩ : Fin 8) = o := Fin.ext hmod
  rw [hj]

end Cert.PointMlp

end
-- ==== Proof.KernelResult.lean ====
import proofs.«408793_j34239479284326_3_alg».proof.Proof.KernelValue
import proofs.«408793_j34239479284326_3_alg».proof.Proof.HostSelA
import proofs.«408793_j34239479284326_3_alg».proof.Proof.HostSelB
import proofs.«408793_j34239479284326_3_alg».proof.Proof.HostVec
import proofs.«408793_j34239479284326_3_alg».proof.Proof.SpecLaw

set_option maxRecDepth 16384

noncomputable section

namespace Cert.KernelIdeal.KernelResult

open Cert.KernelIdeal Cert.KernelIdeal.Gen Idealize.ShloMosaic Idealize.ShloMosaic.TcCoe Idealize.SL.Sem
open Idealize.ShloMosaic.ValueIdx Cert.PointMlp

variable (m : (ℓ : Loc nD τ sig) → Buf (Elt Ideal) ℓ) (ρ : Dev nD → PrngReg)

/-- The nine matrix operands the host builds hold the block-diagonal copies of the weights, the 0/1 selectors and the
    repeated batch-norm rows. -/
theorem operands_packed (c : Dev nD) :
    Packed (W1 := (m ((c : Thread nD τ).loc main_arg2))) (sc1 := bnScale (m ((c : Thread nD τ).loc main_arg3)) (m ((c : Thread nD τ).loc main_arg6)))
      (bi1 := bnBias (m ((c : Thread nD τ).loc main_arg4)) (m ((c : Thread nD τ).loc main_arg5)) (bnScale (m ((c : Thread nD τ).loc main_arg3)) (m ((c : Thread nD τ).loc main_arg6))))
      (W2 := (m ((c : Thread nD τ).loc main_arg7))) (sc2 := bnScale (m ((c : Thread nD τ).loc main_arg8)) (m ((c : Thread nD τ).loc main_arg11)))
      (bi2 := bnBias (m ((c : Thread nD τ).loc main_arg9)) (m ((c : Thread nD τ).loc main_arg10)) (bnScale (m ((c : Thread nD τ).loc main_arg8)) (m ((c : Thread nD τ).loc main_arg11))))
      (T := V m c main_v15) (S := V m c main_v17) (A1 := V m c main_v20) (D1 := V m c main_v23) (A2 := V m c main_v25)
      (s1 := V m c main_v35) (b1 := V m c main_v39) (s2 := V m c main_v49) (b2 := V m c main_v53) :=
  ⟨HostSelA.T_apply m c, HostSelA.S_apply m c, HostSelB.A1_apply m c, HostSelB.D1_apply m c, HostSelB.A2_apply m c,
    HostVec.s1_apply m c, HostVec.b1_apply m c, HostVec.s2_apply m c, HostVec.b2_apply m c⟩

/-- THE KERNEL'S RESULT is the specification's function of the twelve argument arrays: entry (b, n, k, o) of the result
    is lane k·8 + o of point (b, n)'s lane-packed row, which is channel o of neighbour k's computation. -/
theorem result_eq (c : Dev nD) :
    (Pipeline.afterTail₀ cfgs (dats m) 0 (V0 m) [hostOps1] c main_v55 : S8x16384x16x8.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [KernelValue.tail_eq]
  funext i
  obtain ⟨b, n, k, o, rfl⟩ : ∃ (b : Fin 8) (n : Fin 16384) (k : Fin 16) (o : Fin 8), i = ix4 b n k o := ⟨i 0, i 1, i 2, i 3, eq_ix4 i⟩
  refine (shapeCast_apply (s := S8x16384x128) (t := S8x16384x16x8) (KernelValue.packed m c) shapeCasts_S8x16384x128_S8x16384x16x8
    (ix4 b n k o) (ix3 b n ⟨k.val * 8 + o.val, by have := k.isLt; have := o.isLt; omega⟩) ?_).trans ?_
  · show ((⟨3, ![8, 16384, 128]⟩ : Shape).rowMajor _).val = ((⟨4, ![8, 16384, 16, 8]⟩ : Shape).rowMajor _).val
    rw [Shape.rowMajor_val_three, Shape.rowMajor_val_four]
    show (b.val * 16384 + n.val) * 128 + (k.val * 8 + o.val) = ((b.val * 16384 + n.val) * 16 + k.val) * 8 + o.val
    omega
  · unfold KernelValue.packed
    refine (rowK_eq_rowR (operands_packed m c) _ _ k o).trans ?_
    have hx : (fun cc : Fin 3 => (V m c main_arg0 : S8x16384x3.Idx → EReal) (ix3 b n cc))
        = fun cc => (m ((c : Thread nD τ).loc main_arg0) : S8x16384x3.Idx → EReal) (ix3 b n cc) := by
      rw [V_main_arg0]
    have hy : (fun cc : Fin 3 => (V m c main_v0 : S8x16384x48.Idx → EReal)
          (ix3 b n ⟨k.val * 3 + cc.val, by have := k.isLt; have := cc.isLt; omega⟩))
        = fun cc => (m ((c : Thread nD τ).loc main_arg1) : S8x16384x16x3.Idx → EReal) (ix4 b n k cc) := by
      funext cc
      refine (HostVec.ncoords_apply m c b n _).trans (congrArg _ ?_)
      have hk : (k.val * 3 + cc.val) / 3 = k.val := by have := cc.isLt; omega
      have hc : (k.val * 3 + cc.val) % 3 = cc.val := by have := cc.isLt; omega
      funext a
      match a with
      | ⟨0, _⟩ => rfl
      | ⟨1, _⟩ => rfl
      | ⟨2, _⟩ => exact Fin.ext hk
      | ⟨3, _⟩ => exact Fin.ext hc
    show rowR (fun cc => V m c main_arg0 (ix3 b n cc))
        (fun cc => V m c main_v0 (ix3 b n ⟨k.val * 3 + cc.val, by have := k.isLt; have := cc.isLt; omega⟩)) _ _ _ _ _ _ o
      = rowR (fun cc => (m ((c : Thread nD τ).loc main_arg0)) (ix3 b n cc)) (fun cc => (m ((c : Thread nD τ).loc main_arg1)) (ix4 b n k cc)) _ _ _ _ _ _ o
    rw [hx, hy]

/-- THE KERNEL'S RUN, read: every weakly fair execution terminates with the result array at the specification's function
    of the argument arrays and the arguments unchanged. -/
theorem run : θ_run defs (onTc (τ := τ) (main (F := Ideal))) ⟨m, fun _ => 0, ρ⟩ fun r => ∀ c : Dev nD,
      r.2.mem ((c.tc : Thread nD τ).loc main_v55)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v55 (Pipeline.mem_restRefs_of main_v55 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.KernelResult

end
-- ==== Proof.lean ====
/-
  The certificate: a point-cloud encoder's two shared layers.  For each of 8 × 16384 points and each of its 16
  neighbours the reference forms the relative coordinates and their Euclidean length, and passes the four numbers
  through two layers "1×1 convolution, inference batch norm, ReLU" (4 → 4 → 8 channels).  The kernel computes the same
  numbers with the sixteen neighbours of a point laid side by side on the lane axis: it flattens the neighbour and
  coordinate axes (48 lanes), builds on the host the block-diagonal copies of the weights, the 0/1 matrices that repeat a
  point's coordinates and sum three squares, and the batch-norm rows repeated per neighbour, runs 8 × 4 grid points over
  blocks of 4096 points, and splits the 128 output lanes back into 16 × 8.

  Over the extended reals the two agree exactly: a product with a block-diagonal matrix is, lane by lane, the
  per-neighbour product, because the off-diagonal terms are 0 · x = 0 for every extended real x and sums may be
  regrouped freely; no distributive law and no finiteness of the inputs is used.  The modules: Spec (both computations
  as functions), SpecLaw (the law joining them), RefRead (the reference's result is the specification), Payload (the
  kernel body's result at an index), HostSelA / HostSelB / HostVec (what the host-built operands hold), KernelValue (the
  blocks written back are the blocks of one array, and they cover it), KernelResult (the kernel's result is the
  specification).  The three frames are the programs' runs with the results forgotten; the idealization rewrote
  nothing, so its soundness claim is trivial.
-/
import proofs.«408793_j34239479284326_3_alg».proof.Defs
import proofs.«408793_j34239479284326_3_alg».proof.Proof.Gen.Kernel
import proofs.«408793_j34239479284326_3_alg».proof.Proof.Gen.Kernel.Skeleton
import proofs.«408793_j34239479284326_3_alg».proof.Proof.Gen.Kernel.Launch
import proofs.«408793_j34239479284326_3_alg».proof.Proof.Gen.Kernel.Points
import proofs.«408793_j34239479284326_3_alg».proof.Proof.Gen.Kernel.Frame
import proofs.«408793_j34239479284326_3_alg».proof.Proof.Gen.KernelIdeal
import proofs.«408793_j34239479284326_3_alg».proof.Proof.Gen.KernelIdeal.Skeleton
import proofs.«408793_j34239479284326_3_alg».proof.Proof.Gen.KernelIdeal.Launch
import proofs.«408793_j34239479284326_3_alg».proof.Proof.Gen.KernelIdeal.Points
import proofs.«408793_j34239479284326_3_alg».proof.Proof.Gen.KernelIdeal.Frame
import proofs.«408793_j34239479284326_3_alg».proof.Proof.Gen.ReferenceIdeal
import proofs.«408793_j34239479284326_3_alg».proof.Proof.Gen.Pre_finite_inputs
import proofs.«408793_j34239479284326_3_alg».proof.Proof.Gen.ReferenceIdeal.Run
import proofs.«408793_j34239479284326_3_alg».proof.Proof.Gen.ReferenceIdeal.Read
import proofs.«408793_j34239479284326_3_alg».proof.Proof.RefRead
import proofs.«408793_j34239479284326_3_alg».proof.Proof.KernelResult
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's function of the
    arguments as their result: the kernel by its run read block by block, the reference by its run read operation by
    operation. -/
theorem algebraic : Cert.algebraic_KernelIdeal_ReferenceIdeal := by
  intro m ρ m' ρ' _ hagree
  refine ⟨_, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_is_G]
  obtain ⟨h0, h1, h2, h3, h4, h5, h6, h7, h8, h9, h10, h11⟩ := hagree c
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
